-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x41 : Shape := ⟨3, ![4, 4096, 41]⟩
abbrev S2048x2048 : Shape := ⟨2, ![2048, 2048]⟩
abbrev S2048 : Shape := ⟨1, ![2048]⟩
abbrev S_ : Shape := ⟨0, ![]⟩

class Facts : Prop where
  bcast_S_S2048x2048 : S_.BroadcastsInDim S2048x2048 (![] : Fin 0 → Fin S2048x2048.rank)
  reducesTo_S2048x2048_S_d0_1 : S2048x2048.ReducesTo [0, 1] S_
  h_S_ : 0 < S_.numel
  bcast_S_S2048 : S_.BroadcastsInDim S2048 (![] : Fin 0 → Fin S2048.rank)
  reducesTo_S2048_S_d0 : S2048.ReducesTo [0] S_
  bcast_S_S4x4096x41 : S_.BroadcastsInDim S4x4096x41 (![] : Fin 0 → Fin S4x4096x41.rank)
  reducesTo_S4x4096x41_S_d0_1_2 : S4x4096x41.ReducesTo [0, 1, 2] S_

variable [Facts]

def fn_part1 {F : FTy → Type} [FloatOps F] (main_v13 : IVec S_ 1) (main_v15 : IVec S4x4096x41 1) (main_c_5 : IVec S_ 1) : IVec S_ 1 :=
  let main_v16 : IVec S_ 1 := (fun x v => Host.reduce IntOp.andi x v reducesTo_S4x4096x41_S_d0_1_2 h_S_) main_v15 main_c_5
  let main_v17 : IVec S_ 1 := andi main_v13 main_v16
  main_v17

def fn {F : FTy → Type} [FloatOps F] (main_arg0 : IVec S4x4096x41 32) (main_arg1 : FVec F S2048x2048 .f32) (main_arg2 : FVec F S2048 .f32) (main_arg3 : FVec F S2048 .f32) : IVec S_ 1 :=
  let main_v0 : FVec F S2048x2048 .f32 := Host.absf main_arg1
  let main_cst : FVec F S_ .f32 := constant S_ .f32 0x7F800000#32
  let main_v1 : FVec F S2048x2048 .f32 := broadcastInDim S2048x2048 ![] bcast_S_S2048x2048 main_cst
  let main_v2 : IVec S2048x2048 1 := cmpf .olt main_v0 main_v1
  let main_c : IVec S_ 1 := constantI S_ 1 1#1
  let main_v3 : IVec S_ 1 := (fun x v => Host.reduce IntOp.andi x v reducesTo_S2048x2048_S_d0_1 h_S_) main_v2 main_c
  let main_v4 : FVec F S2048 .f32 := Host.absf main_arg2
  let main_cst_0 : FVec F S_ .f32 := constant S_ .f32 0x7F800000#32
  let main_v5 : FVec F S2048 .f32 := broadcastInDim S2048 ![] bcast_S_S2048 main_cst_0
  let main_v6 : IVec S2048 1 := cmpf .olt main_v4 main_v5
  let main_c_1 : IVec S_ 1 := constantI S_ 1 1#1
  let main_v7 : IVec S_ 1 := (fun x v => Host.reduce IntOp.andi x v reducesTo_S2048_S_d0 h_S_) main_v6 main_c_1
  let main_v8 : IVec S_ 1 := andi main_v3 main_v7
  let main_v9 : FVec F S2048 .f32 := Host.absf main_arg3
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  let main_c_4 : IVec S_ 32 := constantI S_ 32 0#32
  let main_v14 : IVec S4x4096x41 32 := broadcastInDim S4x4096x41 ![] bcast_S_S4x4096x41 main_c_4
  let main_v15 : IVec S4x4096x41 1 := cmpi .sge main_arg0 main_v14
  let main_c_5 : IVec S_ 1 := constantI S_ 1 1#1
  fn_part1 (F := F) main_v13 main_v15 main_c_5
-- ==== Kernel.lean ====
abbrev S4x4096x41 : Shape := ⟨3, ![4, 4096, 41]⟩
abbrev S2048x2048 : Shape := ⟨2, ![2048, 2048]⟩
abbrev S2048 : Shape := ⟨1, ![2048]⟩
abbrev S1x2048 : Shape := ⟨2, ![1, 2048]⟩
abbrev S4x4096x2048 : Shape := ⟨3, ![4, 4096, 2048]⟩
abbrev S1x256x41 : Shape := ⟨3, ![1, 256, 41]⟩
abbrev S1x256x2048 : Shape := ⟨3, ![1, 256, 2048]⟩
abbrev S256x41 : Shape := ⟨2, ![256, 41]⟩
abbrev S1x1x128 : Shape := ⟨3, ![1, 1, 128]⟩
abbrev S256x41x1 : Shape := ⟨3, ![256, 41, 1]⟩
abbrev S256x41x128 : Shape := ⟨3, ![256, 41, 128]⟩
abbrev S256x2048 : Shape := ⟨2, ![256, 2048]⟩
abbrev S256x128 : Shape := ⟨2, ![256, 128]⟩
abbrev S128x2048 : Shape := ⟨2, ![128, 2048]⟩
abbrev S256 : Shape := ⟨1, ![256]⟩
abbrev S256x1 : Shape := ⟨2, ![256, 1]⟩

abbrev nBuf : Space → Nat
  | .hbm => 9
  | .vmem => 7
  | .smem => 0
  | _ => 0

abbrev bufTy : (tb : Table) → Fin (tcTables nBuf tb) → BufTy
  | .hbm, ⟨0, _⟩ => ⟨S4x4096x41, .i32⟩
  | .hbm, ⟨1, _⟩ => ⟨S2048x2048, .f32⟩
  | .hbm, ⟨2, _⟩ => ⟨S2048, .f32⟩
  | .hbm, ⟨3, _⟩ => ⟨S2048, .f32⟩
  | .hbm, ⟨4, _⟩ => ⟨S2048x2048, .f32⟩
  | .hbm, ⟨5, _⟩ => ⟨S2048x2048, .bf16⟩
  | .hbm, ⟨6, _⟩ => ⟨S1x2048, .f32⟩
  | .hbm, ⟨7, _⟩ => ⟨S1x2048, .f32⟩
  | .hbm, ⟨8, _⟩ => ⟨S4x4096x2048, .f32⟩
  | .local _ .vmem, ⟨0, _⟩ => ⟨S1x256x41, .i32⟩
  | .local _ .vmem, ⟨1, _⟩ => ⟨S1x256x41, .i32⟩
  | .local _ .vmem, ⟨2, _⟩ => ⟨S2048x2048, .bf16⟩
  | .local _ .vmem, ⟨3, _⟩ => ⟨S1x2048, .f32⟩
  | .local _ .vmem, ⟨4, _⟩ => ⟨S1x2048, .f32⟩
  | .local _ .vmem, ⟨5, _⟩ => ⟨S1x256x2048, .f32⟩
  | .local _ .vmem, ⟨6, _⟩ => ⟨S1x256x2048, .f32⟩
  | _, _ => ⟨S4x4096x41, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x41 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  transposes_S2048x2048_S2048x2048_1_0 : S2048x2048.Transposes [1, 0] S2048x2048
  bitsLt_bf16_f32 : FTy.bits .bf16 < FTy.bits .f32
  shapeCasts_S2048_S1x2048 : S2048.ShapeCasts S1x2048
  inb_S1x256x41_S1x256x41_0_0_0 : ∀ a, (![0, 0, 0] : Fin 3 → Nat) a + S1x256x41.size a ≤ S1x256x41.size a
  h_S1x256x41 : 0 < S1x256x41.numel
  shapeCasts_S1x256x41_S256x41 : S1x256x41.ShapeCasts S256x41
  iota_S1x1x128_d2_w32 : S1x1x128.Iotas .tc 32 [2]
  shapeCasts_S256x41_S256x41x1 : S256x41.ShapeCasts S256x41x1
  broadcasts_S256x41x1_S256x41x128 : S256x41x1.Broadcasts S256x41x128
  broadcasts_S1x1x128_S256x41x128 : S1x1x128.Broadcasts S256x41x128
  natLt_1_32 : 1 < 32
  reduces_S256x41x128_S256x128 : S256x41x128.Reduces [1] S256x128
  inb_S2048x2048_S128x2048_0_0 : ∀ a, (![0, 0] : Fin 2 → Nat) a + S128x2048.size a ≤ S2048x2048.size a
  h_S128x2048 : 0 < S128x2048.numel
  shapeCasts_S128x2048_S128x2048 : S128x2048.ShapeCasts S128x2048
  inb_S2048x2048_S128x2048_128_0 : ∀ a, (![128, 0] : Fin 2 → Nat) a + S128x2048.size a ≤ S2048x2048.size a
  inb_S2048x2048_S128x2048_256_0 : ∀ a, (![256, 0] : Fin 2 → Nat) a + S128x2048.size a ≤ S2048x2048.size a
  inb_S2048x2048_S128x2048_384_0 : ∀ a, (![384, 0] : Fin 2 → Nat) a + S128x2048.size a ≤ S2048x2048.size a
  inb_S2048x2048_S128x2048_512_0 : ∀ a, (![512, 0] : Fin 2 → Nat) a + S128x2048.size a ≤ S2048x2048.size a
  inb_S2048x2048_S128x2048_640_0 : ∀ a, (![640, 0] : Fin 2 → Nat) a + S128x2048.size a ≤ S2048x2048.size a
  inb_S2048x2048_S128x2048_768_0 : ∀ a, (![768, 0] : Fin 2 → Nat) a + S128x2048.size a ≤ S2048x2048.size a
  inb_S2048x2048_S128x2048_896_0 : ∀ a, (![896, 0] : Fin 2 → Nat) a + S128x2048.size a ≤ S2048x2048.size a
  inb_S2048x2048_S128x2048_1024_0 : ∀ a, (![1024, 0] : Fin 2 → Nat) a + S128x2048.size a ≤ S2048x2048.size a
  inb_S2048x2048_S128x2048_1152_0 : ∀ a, (![1152, 0] : Fin 2 → Nat) a + S128x2048.size a ≤ S2048x2048.size a
  inb_S2048x2048_S128x2048_1280_0 : ∀ a, (![1280, 0] : Fin 2 → Nat) a + S128x2048.size a ≤ S2048x2048.size a
  inb_S2048x2048_S128x2048_1408_0 : ∀ a, (![1408, 0] : Fin 2 → Nat) a + S128x2048.size a ≤ S2048x2048.size a
  inb_S2048x2048_S128x2048_1536_0 : ∀ a, (![1536, 0] : Fin 2 → Nat) a + S128x2048.size a ≤ S2048x2048.size a
  inb_S2048x2048_S128x2048_1664_0 : ∀ a, (![1664, 0] : Fin 2 → Nat) a + S128x2048.size a ≤ S2048x2048.size a
  inb_S2048x2048_S128x2048_1792_0 : ∀ a, (![1792, 0] : Fin 2 → Nat) a + S128x2048.size a ≤ S2048x2048.size a
  inb_S2048x2048_S128x2048_1920_0 : ∀ a, (![1920, 0] : Fin 2 → Nat) a + S128x2048.size a ≤ S2048x2048.size a
  reduces_S256x2048_S256 : S256x2048.Reduces [1] S256
  shapeCasts_S256_S256x1 : S256.ShapeCasts S256x1
  broadcasts_S256x1_S256x2048 : S256x1.Broadcasts S256x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S256x2048 : S1x2048.Broadcasts S256x2048
  inb_S1x256x2048_S1x256x2048_0_0_0 : ∀ a, (![0, 0, 0] : Fin 3 → Nat) a + S1x256x2048.size a ≤ S1x256x2048.size a
  h_S1x256x2048 : 0 < S1x256x2048.numel
  shapeCasts_S1x256x2048_S256x2048 : S1x256x2048.ShapeCasts S256x2048
  shapeCasts_S256x2048_S1x256x2048 : S256x2048.ShapeCasts S1x256x2048
  dot_S256x128_S128x2048_S256x2048_1_0_0_1_n_n_wf : DotDims.WF S256x128 S128x2048 S256x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x41.size a ≤ S4x4096x41.size a
  hwx0_0 : ∀ i : grid0.Coords, EltTy.bits .i32 = 32 ∨ (Rect.block (s := S4x4096x41) S1x256x41.size (cc0_transform_0 i) (hinb0_0 i)).WholeWords (EltTy.packing .i32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x2048.size a ≤ S2048x2048.size a
  hwx0_1 : ∀ i : grid0.Coords, EltTy.bits .bf16 = 32 ∨ (Rect.block (s := S2048x2048) S2048x2048.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x2048.size a
  hwx0_2 : ∀ i : grid0.Coords, EltTy.bits .f32 = 32 ∨ (Rect.block (s := S1x2048) S1x2048.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x2048.size a ≤ S1x2048.size a
  hwx0_3 : ∀ i : grid0.Coords, EltTy.bits .f32 = 32 ∨ (Rect.block (s := S1x2048) S1x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x256x2048.size a ≤ S4x4096x2048.size a
  hwx0_4 : ∀ i : grid0.Coords, EltTy.bits .f32 = 32 ∨ (Rect.block (s := S4x4096x2048) S1x256x2048.size (cc0_transform_4 i) (hinb0_4 i)).WholeWords (EltTy.packing .f32)

variable [Facts₀]

def dot_S256x128_S128x2048_S256x2048_1_0_0_1_n_n : DotDims S256x128 S128x2048 S256x2048 where
  lhsContracting := [1]
  rhsContracting := [0]
  lhsNonContracting := [0]
  rhsNonContracting := [1]
  lhsBatch := []
  rhsBatch := []
  wf := dot_S256x128_S128x2048_S256x2048_1_0_0_1_n_n_wf

abbrev win0_0 : Pipeline.Window sig grid0 :=
  Pipeline.Window.ofSpec (Memref.whole main_arg0) S1x256x41.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S2048x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x256x2048.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4x4096x41 : Shape := ⟨3, ![4, 4096, 41]⟩
abbrev S2048x2048 : Shape := ⟨2, ![2048, 2048]⟩
abbrev S2048 : Shape := ⟨1, ![2048]⟩
abbrev S4 : Shape := ⟨1, ![4]⟩
abbrev S4x1x1 : Shape := ⟨3, ![4, 1, 1]⟩
abbrev S4096 : Shape := ⟨1, ![4096]⟩
abbrev S1x4096x1 : Shape := ⟨3, ![1, 4096, 1]⟩
abbrev S_ : Shape := ⟨0, ![]⟩
abbrev S4x4096x2048 : Shape := ⟨3, ![4, 4096, 2048]⟩
abbrev S4x4096x41x1 : Shape := ⟨4, ![4, 4096, 41, 1]⟩
abbrev S4x4096x41x3 : Shape := ⟨4, ![4, 4096, 41, 3]⟩
abbrev S4x4096 : Shape := ⟨2, ![4, 4096]⟩
abbrev S4x4096x1 : Shape := ⟨3, ![4, 4096, 1]⟩
abbrev S1x1x2048 : Shape := ⟨3, ![1, 1, 2048]⟩

abbrev nBuf : Space → Nat
  | .hbm => 85
  | .vmem => 0
  | .smem => 0
  | _ => 0

abbrev bufTy : (tb : Table) → Fin (tcTables nBuf tb) → BufTy
  | .hbm, ⟨0, _⟩ => ⟨S4x4096x41, .i32⟩
  | .hbm, ⟨1, _⟩ => ⟨S2048x2048, .f32⟩
  | .hbm, ⟨2, _⟩ => ⟨S2048, .f32⟩
  | .hbm, ⟨3, _⟩ => ⟨S2048, .f32⟩
  | .hbm, ⟨4, _⟩ => ⟨S4, .i32⟩
  | .hbm, ⟨5, _⟩ => ⟨S4x1x1, .i32⟩
  | .hbm, ⟨6, _⟩ => ⟨S4096, .i32⟩
  | .hbm, ⟨7, _⟩ => ⟨S1x4096x1, .i32⟩
  | .hbm, ⟨8, _⟩ => ⟨S_, .f32⟩
  | .hbm, ⟨9, _⟩ => ⟨S4x4096x2048, .f32⟩
  | .hbm, ⟨10, _⟩ => ⟨S_, .i32⟩
  | .hbm, ⟨11, _⟩ => ⟨S4x1x1, .i32⟩
  | .hbm, ⟨12, _⟩ => ⟨S4x1x1, .i1⟩
  | .hbm, ⟨13, _⟩ => ⟨S_, .i32⟩
  | .hbm, ⟨14, _⟩ => ⟨S4x1x1, .i32⟩
  | .hbm, ⟨15, _⟩ => ⟨S4x1x1, .i32⟩
  | .hbm, ⟨16, _⟩ => ⟨S4x1x1, .i32⟩
  | .hbm, ⟨17, _⟩ => ⟨S_, .i32⟩
  | .hbm, ⟨18, _⟩ => ⟨S1x4096x1, .i32⟩
  | .hbm, ⟨19, _⟩ => ⟨S1x4096x1, .i1⟩
  | .hbm, ⟨20, _⟩ => ⟨S_, .i32⟩
  | .hbm, ⟨21, _⟩ => ⟨S1x4096x1, .i32⟩
  | .hbm, ⟨22, _⟩ => ⟨S1x4096x1, .i32⟩
  | .hbm, ⟨23, _⟩ => ⟨S1x4096x1, .i32⟩
  | .hbm, ⟨24, _⟩ => ⟨S_, .i32⟩
  | .hbm, ⟨25, _⟩ => ⟨S4x4096x41, .i32⟩
  | .hbm, ⟨26, _⟩ => ⟨S4x4096x41, .i1⟩
  | .hbm, ⟨27, _⟩ => ⟨S_, .i32⟩
  | .hbm, ⟨28, _⟩ => ⟨S4x4096x41, .i32⟩
  | .hbm, ⟨29, _⟩ => ⟨S4x4096x41, .i32⟩
  | .hbm, ⟨30, _⟩ => ⟨S4x4096x41, .i32⟩
  | .hbm, ⟨31, _⟩ => ⟨S4x4096x41, .i32⟩
  | .hbm, ⟨32, _⟩ => ⟨S4x4096x41, .i32⟩
  | .hbm, ⟨33, _⟩ => ⟨S4x4096x41x1, .i32⟩
  | .hbm, ⟨34, _⟩ => ⟨S4x4096x41x1, .i32⟩
  | .hbm, ⟨35, _⟩ => ⟨S4x4096x41x1, .i32⟩
  | .hbm, ⟨36, _⟩ => ⟨S4x4096x41x3, .i32⟩
  | .hbm, ⟨37, _⟩ => ⟨S_, .f32⟩
  | .hbm, ⟨38, _⟩ => ⟨S4x4096x41, .f32⟩
  | .hbm, ⟨39, _⟩ => ⟨S4x4096x2048, .f32⟩
  | .hbm, ⟨40, _⟩ => ⟨S4x4096x2048, .f32⟩
  | .hbm, ⟨41, _⟩ => ⟨S_, .f32⟩
  | .hbm, ⟨42, _⟩ => ⟨S4x4096, .f32⟩
  | .hbm, ⟨43, _⟩ => ⟨S4x4096x1, .f32⟩
  | .hbm, ⟨44, _⟩ => ⟨S_, .f32⟩
  | .hbm, ⟨45, _⟩ => ⟨S4x4096x1, .f32⟩
  | .hbm, ⟨46, _⟩ => ⟨S4x4096x1, .f32⟩
  | .hbm, ⟨47, _⟩ => ⟨S_, .i32⟩
  | .hbm, ⟨48, _⟩ => ⟨S_, .f32⟩
  | .hbm, ⟨49, _⟩ => ⟨S4x4096, .f32⟩
  | .hbm, ⟨50, _⟩ => ⟨S4x4096x1, .f32⟩
  | .hbm, ⟨51, _⟩ => ⟨S_, .f32⟩
  | .hbm, ⟨52, _⟩ => ⟨S4x4096x1, .f32⟩
  | .hbm, ⟨53, _⟩ => ⟨S4x4096x1, .f32⟩
  | .hbm, ⟨54, _⟩ => ⟨S4x4096x2048, .f32⟩
  | .hbm, ⟨55, _⟩ => ⟨S4x4096x2048, .f32⟩
  | .hbm, ⟨56, _⟩ => ⟨S4x4096x2048, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S4x4096, .f32⟩
  | .hbm, ⟨62, _⟩ => ⟨S4x4096x1, .f32⟩
  | .hbm, ⟨63, _⟩ => ⟨S4x4096x1, .f32⟩
  | .hbm, ⟨64, _⟩ => ⟨S4x4096x1, .f32⟩
  | .hbm, ⟨65, _⟩ => ⟨S_, .f32⟩
  | .hbm, ⟨66, _⟩ => ⟨S_, .i1⟩
  | .hbm, ⟨67, _⟩ => ⟨S_, .f32⟩
  | .hbm, ⟨68, _⟩ => ⟨S_, .f32⟩
  | .hbm, ⟨69, _⟩ => ⟨S4x4096x1, .f32⟩
  | .hbm, ⟨70, _⟩ => ⟨S4x4096x1, .f32⟩
  | .hbm, ⟨71, _⟩ => ⟨S4x4096x2048, .f32⟩
  | .hbm, ⟨72, _⟩ => ⟨S4x4096x2048, .f32⟩
  | .hbm, ⟨73, _⟩ => ⟨S_, .f32⟩
  | .hbm, ⟨74, _⟩ => ⟨S4x4096x1, .f32⟩
  | .hbm, ⟨75, _⟩ => ⟨S4x4096x1, .f32⟩
  | .hbm, ⟨76, _⟩ => ⟨S4x4096x1, .f32⟩
  | .hbm, ⟨77, _⟩ => ⟨S4x4096x2048, .f32⟩
  | .hbm, ⟨78, _⟩ => ⟨S4x4096x2048, .f32⟩
  | .hbm, ⟨79, _⟩ => ⟨S1x1x2048, .f32⟩
  | .hbm, ⟨80, _⟩ => ⟨S4x4096x2048, .f32⟩
  | .hbm, ⟨81, _⟩ => ⟨S4x4096x2048, .f32⟩
  | .hbm, ⟨82, _⟩ => ⟨S1x1x2048, .f32⟩
  | .hbm, ⟨83, _⟩ => ⟨S4x4096x2048, .f32⟩
  | .hbm, ⟨84, _⟩ => ⟨S4x4096x2048, .f32⟩
  | _, _ => ⟨S4x4096x41, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_c : Ref sig .tc := ⟨.hbm, 10, rfl⟩
abbrev main_v5 : Ref sig .tc := ⟨.hbm, 11, rfl⟩
abbrev main_v6 : Ref sig .tc := ⟨.hbm, 12, rfl⟩
abbrev main_c_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c_1 : Ref sig .tc := ⟨.hbm, 17, rfl⟩
abbrev main_v10 : Ref sig .tc := ⟨.hbm, 18, rfl⟩
abbrev main_v11 : Ref sig .tc := ⟨.hbm, 19, rfl⟩
abbrev main_c_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_c_3 : Ref sig .tc := ⟨.hbm, 24, rfl⟩
abbrev main_v15 : Ref sig .tc := ⟨.hbm, 25, rfl⟩
abbrev main_v16 : Ref sig .tc := ⟨.hbm, 26, rfl⟩
abbrev main_c_4 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_5 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_6 : Ref sig .tc := ⟨.hbm, 41, rfl⟩
abbrev main_v29 : Ref sig .tc := ⟨.hbm, 42, rfl⟩
abbrev main_v30 : Ref sig .tc := ⟨.hbm, 43, rfl⟩
abbrev main_cst_7 : Ref sig .tc := ⟨.hbm, 44, rfl⟩
abbrev main_v31 : Ref sig .tc := ⟨.hbm, 45, rfl⟩
abbrev main_v32 : Ref sig .tc := ⟨.hbm, 46, rfl⟩
abbrev main_c_8 : Ref sig .tc := ⟨.hbm, 47, rfl⟩
abbrev main_call0_cst : Ref sig .tc := ⟨.hbm, 48, rfl⟩
abbrev main_call0_v0 : Ref sig .tc := ⟨.hbm, 49, rfl⟩
abbrev main_call0_v1 : Ref sig .tc := ⟨.hbm, 50, rfl⟩
abbrev main_call0_cst_0 : Ref sig .tc := ⟨.hbm, 51, rfl⟩
abbrev main_call0_v2 : Ref sig .tc := ⟨.hbm, 52, rfl⟩
abbrev main_call0_v3 : Ref sig .tc := ⟨.hbm, 53, rfl⟩
abbrev main_call0_v4 : Ref sig .tc := ⟨.hbm, 54, rfl⟩
abbrev main_call0_v5 : Ref sig .tc := ⟨.hbm, 55, rfl⟩
abbrev main_call0_v6 : Ref sig .tc := ⟨.hbm, 56, rfl⟩
abbrev main_call0_v7 : Ref sig .tc := ⟨.hbm, 57, rfl⟩
abbrev main_call0_cst_1 : Ref sig .tc := ⟨.hbm, 58, rfl⟩
abbrev main_call0_v8 : Ref sig .tc := ⟨.hbm, 59, rfl⟩
abbrev main_call0_cst_2 : Ref sig .tc := ⟨.hbm, 60, rfl⟩
abbrev main_call0_v9 : Ref sig .tc := ⟨.hbm, 61, rfl⟩
abbrev main_call0_v10 : Ref sig .tc := ⟨.hbm, 62, rfl⟩
abbrev main_call0_v11 : Ref sig .tc := ⟨.hbm, 63, rfl⟩
abbrev main_call0_v12 : Ref sig .tc := ⟨.hbm, 64, rfl⟩
abbrev main_call0_cst_3 : Ref sig .tc := ⟨.hbm, 65, rfl⟩
abbrev main_call0_v13 : Ref sig .tc := ⟨.hbm, 66, rfl⟩
abbrev main_call0_cst_4 : Ref sig .tc := ⟨.hbm, 67, rfl⟩
abbrev main_call0_call0_v0 : Ref sig .tc := ⟨.hbm, 68, rfl⟩
abbrev main_call0_call0_v1 : Ref sig .tc := ⟨.hbm, 69, rfl⟩
abbrev main_v33 : Ref sig .tc := ⟨.hbm, 70, rfl⟩
abbrev main_v34 : Ref sig .tc := ⟨.hbm, 71, rfl⟩
abbrev main_v35 : Ref sig .tc := ⟨.hbm, 72, rfl⟩
abbrev main_cst_9 : Ref sig .tc := ⟨.hbm, 73, rfl⟩
abbrev main_v36 : Ref sig .tc := ⟨.hbm, 74, rfl⟩
abbrev main_v37 : Ref sig .tc := ⟨.hbm, 75, rfl⟩
abbrev main_v38 : Ref sig .tc := ⟨.hbm, 76, rfl⟩
abbrev main_v39 : Ref sig .tc := ⟨.hbm, 77, rfl⟩
abbrev main_v40 : Ref sig .tc := ⟨.hbm, 78, rfl⟩
abbrev main_v41 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_v45 : Ref sig .tc := ⟨.hbm, 83, rfl⟩
abbrev main_v46 : Ref sig .tc := ⟨.hbm, 84, rfl⟩

abbrev nD : Nat := 1
abbrev τ : Topo := Topo.v7x

variable {F : FTy → Type} [FloatOps F]

class Facts₀ : Prop where
  bcast_S4_S4x1x1_0 : S4.BroadcastsInDim S4x1x1 (![0] : Fin 1 → Fin S4x1x1.rank)
  bcast_S4096_S1x4096x1_1 : S4096.BroadcastsInDim S1x4096x1 (![1] : Fin 1 → Fin S1x4096x1.rank)
  bcast_S_S4x4096x2048 : S_.BroadcastsInDim S4x4096x2048 (![] : Fin 0 → Fin S4x4096x2048.rank)
  bcast_S_S4x1x1 : S_.BroadcastsInDim S4x1x1 (![] : Fin 0 → Fin S4x1x1.rank)
  bcast_S_S1x4096x1 : S_.BroadcastsInDim S1x4096x1 (![] : Fin 0 → Fin S1x4096x1.rank)
  bcast_S_S4x4096x41 : S_.BroadcastsInDim S4x4096x41 (![] : Fin 0 → Fin S4x4096x41.rank)
  bcast_S4x1x1_S4x4096x41_0_1_2 : S4x1x1.BroadcastsInDim S4x4096x41 (![0, 1, 2] : Fin 3 → Fin S4x4096x41.rank)
  bcast_S1x4096x1_S4x4096x41_0_1_2 : S1x4096x1.BroadcastsInDim S4x4096x41 (![0, 1, 2] : Fin 3 → Fin S4x4096x41.rank)
  bcast_S4x4096x41_S4x4096x41x1_0_1_2 : S4x4096x41.BroadcastsInDim S4x4096x41x1 (![0, 1, 2] : Fin 3 → Fin S4x4096x41x1.rank)
  concatenates_S4x4096x41x1_S4x4096x41x1_S4x4096x41x1_S4x4096x41x3_d3 : Shape.Concatenates [S4x4096x41x1, S4x4096x41x1, S4x4096x41x1] S4x4096x41x3 3
  reducesTo_S4x4096x2048_S4x4096_d2 : S4x4096x2048.ReducesTo [2] S4x4096
  h_S_ : 0 < S_.numel
  bcast_S4x4096_S4x4096x1_0_1 : S4x4096.BroadcastsInDim S4x4096x1 (![0, 1] : Fin 2 → Fin S4x4096x1.rank)
  bcast_S_S4x4096x1 : S_.BroadcastsInDim S4x4096x1 (![] : Fin 0 → Fin S4x4096x1.rank)
  bcast_S4x4096x1_S4x4096x2048_0_1_2 : S4x4096x1.BroadcastsInDim S4x4096x2048 (![0, 1, 2] : Fin 3 → Fin S4x4096x2048.rank)
  bcast_S2048_S1x1x2048_2 : S2048.BroadcastsInDim S1x1x2048 (![2] : Fin 1 → Fin S1x1x2048.rank)
  bcast_S1x1x2048_S4x4096x2048_0_1_2 : S1x1x2048.BroadcastsInDim S4x4096x2048 (![0, 1, 2] : Fin 3 → Fin S4x4096x2048.rank)
  scatter_S4x4096x2048_S4x4096x41x3_S4x4096x41_n_012_012_3_wf : ScatterDims.WF S4x4096x2048 S4x4096x41x3 S4x4096x41 [] [0, 1, 2] [0, 1, 2] 3
  dot_S4x4096x2048_S2048x2048_S4x4096x2048_2_1_01_0_n_n_wf : DotDims.WF S4x4096x2048 S2048x2048 S4x4096x2048 [2] [1] [0, 1] [0] [] []

variable [Facts₀]

def scatter_S4x4096x2048_S4x4096x41x3_S4x4096x41_n_012_012_3 : ScatterDims S4x4096x2048 S4x4096x41x3 S4x4096x41 where
  updateWindowDims := []
  insertedWindowDims := [0, 1, 2]
  scatterDimsToOperandDims := [0, 1, 2]
  indexVectorDim := 3
  wf := scatter_S4x4096x2048_S4x4096x41x3_S4x4096x41_n_012_012_3_wf
def dot_S4x4096x2048_S2048x2048_S4x4096x2048_2_1_01_0_n_n : DotDims S4x4096x2048 S2048x2048 S4x4096x2048 where
  lhsContracting := [2]
  rhsContracting := [1]
  lhsNonContracting := [0, 1]
  rhsNonContracting := [0]
  lhsBatch := []
  rhsBatch := []
  wf := dot_S4x4096x2048_S2048x2048_S4x4096x2048_2_1_01_0_n_n_wf

class Facts : Prop extends Facts₀ where

variable [Facts]
-- ==== Proof.Spec.lean ====
/-
  The mathematics of the statement, with no program in sight.

  A row of 41 integer ids names a SET of columns of a 2048-wide row: column n is named when some id of the
  row equals n as a signed integer (an id outside 0 … 2047 names nothing; a repeated id names its column once).
  The row's indicator is 1 on the named columns and 0 elsewhere; the projected row is
      x[h] = Σ_n ind[n] · P[h, n],
  and the result is LayerNorm of x along h:  (x − μ) · rsqrt(σ² + ε) · γ + β  with  μ = (Σ x)/2048  and
  σ² = (Σ (x − μ)²)/2048, every operation the extended reals' own. The two literals (2048 and ε) are kept as
  the words both programs carry; nothing here evaluates them.

  Both programs are proved equal to `G` index by index. The one algebraic step is a regrouping of the
  contraction: a sum over the 2048 columns is the sum over 16 groups of 128 lanes (`sum_groups`), which on
  the extended reals needs only that addition is commutative and associative — no finiteness.
-/
import Idealize.ShloMosaic.PureOps.Ideal
import Idealize.ShloMosaic.PureOps.Ideal.Laws
import Idealize.ShloMosaic.Lib.ValueIdx
import Mathlib.Algebra.BigOperators.Fin
import Mathlib.Logic.Equiv.Fin.Basic

noncomputable section

open scoped BigOperators

namespace Cert.Spec

open Idealize.ShloMosaic Idealize.ShloMosaic.ValueIdx

/-- The word 2048.0 (f32), as both programs divide by it. -/
abbrev c2048 : EReal := Ideal.ofBits .f32 0x45000000#32
/-- The word of ε = f32(1e-5), as both programs add it under the reciprocal square root. -/
abbrev ceps : EReal := Ideal.ofBits .f32 0x3727C5AC#32

/-- Column `n` is named by the row: some one of its 41 ids equals `n`, read as a signed integer. -/
def hit (row : Fin 41 → BitVec 32) (n : Fin 2048) : Prop := ∃ w : Fin 41, (row w).toInt = (n.val : Int)

open Classical in
/-- The row's indicator: 1 at the columns it names, 0 elsewhere. -/
def ind (row : Fin 41 → BitVec 32) (n : Fin 2048) : EReal := if hit row n then 1 else 0

/-- The projected row: `x[h] = Σ_n ind[n] · P h n`. -/
def proj (row : Fin 41 → BitVec 32) (P : Fin 2048 → Fin 2048 → EReal) (h : Fin 2048) : EReal :=
  ∑ n : Fin 2048, ind row n * P h n

/-- LayerNorm of a row of 2048 extended reals, scaled by `g` and shifted by `bt`. -/
def lnRow (x g bt : Fin 2048 → EReal) (h : Fin 2048) : EReal :=
  (x h - Ideal.div (∑ k : Fin 2048, x k) c2048)
      * Ideal.rsqrt (Ideal.div (∑ k : Fin 2048, (x k - Ideal.div (∑ k : Fin 2048, x k) c2048)
          * (x k - Ideal.div (∑ k : Fin 2048, x k) c2048)) c2048 + ceps)
      * g h + bt h

/-- The ids of row `(b, s)` of the [4, 4096, 41] id array. -/
def row (ids : (⟨3, ![4, 4096, 41]⟩ : Shape).Idx → BitVec 32) (b : Fin 4) (s : Fin 4096) : Fin 41 → BitVec 32 :=
  fun w => ids (ix3 b s w)

/-- The result at coordinates `(b, s, h)`: LayerNorm of the projection of row `(b, s)`'s indicator by
    `pw` (`P h n = pw[h, n]`), scaled by `g` and shifted by `bt`. -/
def G3 (ids : (⟨3, ![4, 4096, 41]⟩ : Shape).Idx → BitVec 32) (pw : (⟨2, ![2048, 2048]⟩ : Shape).Idx → EReal)
    (g bt : (⟨1, ![2048]⟩ : Shape).Idx → EReal) (b : Fin 4) (s : Fin 4096) (h : Fin 2048) : EReal :=
  lnRow (proj (row ids b s) (fun h' n => pw (ix2 h' n))) (fun k => g (ix1 k)) (fun k => bt (ix1 k)) h

/-- The whole [4, 4096, 2048] result as one function of the four argument arrays. -/
def G (ids : (⟨3, ![4, 4096, 41]⟩ : Shape).Idx → BitVec 32) (pw : (⟨2, ![2048, 2048]⟩ : Shape).Idx → EReal)
    (g bt : (⟨1, ![2048]⟩ : Shape).Idx → EReal) : (⟨3, ![4, 4096, 2048]⟩ : Shape).Idx → EReal :=
  fun j => G3 ids pw g bt (j 0) (j 1) (j 2)

theorem G_ix3 (ids : (⟨3, ![4, 4096, 41]⟩ : Shape).Idx → BitVec 32) (pw : (⟨2, ![2048, 2048]⟩ : Shape).Idx → EReal)
    (g bt : (⟨1, ![2048]⟩ : Shape).Idx → EReal) (b : Fin 4) (s : Fin 4096) (h : Fin 2048) :
    G ids pw g bt (ix3 b s h) = G3 ids pw g bt b s h := rfl

/-- Column `128·i + l` of group `i`, lane `l`. -/
def col (i : Fin 16) (l : Fin 128) : Fin 2048 := ⟨128 * i.val + l.val, by have := i.isLt; have := l.isLt; omega⟩

/-- A sum over the 2048 columns is the sum over the 16 groups of the sums over each group's 128 lanes. -/
theorem sum_groups (f : Fin 2048 → EReal) : ∑ n : Fin 2048, f n = ∑ i : Fin 16, ∑ l : Fin 128, f (col i l) := by
  -- the pairs (group, lane) are in bijection with the columns by (i, l) ↦ l + 128·i
  rw [← Fintype.sum_prod_type' (fun (i : Fin 16) (l : Fin 128) => f (col i l))]
  refine (Fintype.sum_equiv (finProdFinEquiv (m := 16) (n := 128)) _ _ (fun p => ?_)).symm
  refine congrArg f (Fin.ext ?_)
  show 128 * p.1.val + p.2.val = p.2.val + 128 * p.1.val
  omega

end Cert.Spec

end
-- ==== Proof.KerGroup.lean ====
/-
  One of the kernel's sixteen groups: the lanes' indicator of the ids whose high part is i, contracted with 128 rows of the weight block.
-/
import proofs.«408732_j42623255445785_3_alg».proof.Proof.Gen.KernelIdeal.Skeleton
import proofs.«408732_j42623255445785_3_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.KerGroup

open Cert.KernelIdeal Cert.KernelIdeal.Gen Idealize.ShloMosaic Idealize.ShloMosaic.ValueIdx

/-! ## The words: an id x splits as 128 · (x >> 7) + (x & 127), read signed

For a 32-bit word x, the arithmetic shift by 7 is the floor of x / 128 as a signed integer and the mask by 127 is
x mod 128; so "the high part is i and the low part is l" (i < 16, l < 128) says exactly that x, read signed, is
128·i + l. A negative id has a negative high part, an id ≥ 2048 a high part ≥ 16: neither equals any group's i. -/

/-- The arithmetic shift by the literal amount 7 is the signed shift by 7 (the amount is below the width). -/
theorem shrsi7 (x : BitVec 32) : IntOp.shrsi .vector x 7#32 = x.sshiftRight 7 := by
  unfold IntOp.shrsi
  rfl

/-- The signed shift by 7, read signed, is the floor of the quotient by 128. -/
theorem toInt_shr7 (x : BitVec 32) : (x.sshiftRight 7).toInt = x.toInt / 128 := by
  rw [BitVec.toInt_sshiftRight, Int.shiftRight_eq_div_pow]
  rfl

/-- The mask by 127, read unsigned, is the remainder modulo 128. -/
theorem toNat_and127 (x : BitVec 32) : (x &&& 127#32).toNat = x.toNat % 128 := by
  rw [BitVec.toNat_and]
  exact Nat.and_two_pow_sub_one_eq_mod x.toNat 7

/-- A number below 2048 is its own 32-bit word, read unsigned. -/
theorem toNat_small (n : Nat) (h : n < 2048) : (BitVec.ofNat 32 n).toNat = n := by
  rw [BitVec.toNat_ofNat]
  exact Nat.mod_eq_of_lt (by omega)

/-- A 32-bit word read signed: its unsigned value below 2³¹, that value less 2³² from there on. -/
theorem toInt_cases (x : BitVec 32) :
    (2 * x.toNat < 4294967296 ∧ x.toInt = (x.toNat : Int)) ∨ (4294967296 ≤ 2 * x.toNat ∧ x.toInt = (x.toNat : Int) - 4294967296) := by
  have h := BitVec.toInt_eq_toNat_cond x
  by_cases hlt : 2 * x.toNat < 2 ^ 32
  · left; exact ⟨by omega, by rw [h, if_pos hlt]⟩
  · right; refine ⟨by omega, ?_⟩
    rw [h, if_neg hlt]; norm_num

/-- A number below 2048 is its own 32-bit word, read signed. -/
theorem toInt_small (n : Nat) (h : n < 2048) : (BitVec.ofNat 32 n).toInt = (n : Int) := by
  have hc := toInt_cases (BitVec.ofNat 32 n)
  rw [toNat_small n h] at hc
  omega

/-- THE WORD FACT: the high part of x is i and its low seven bits are l exactly when x, read signed, is 128·i + l. -/
theorem word_iff (x : BitVec 32) (i : Fin 16) (l : Fin 128) :
    (IntOp.shrsi .vector x 7#32 = BitVec.ofNat 32 i.val ∧ IntOp.andi x 127#32 = BitVec.ofNat 32 l.val)
      ↔ x.toInt = ((128 * i.val + l.val : Nat) : Int) := by
  have hi := i.isLt
  have hl := l.isLt
  have hx := x.isLt
  have hc := toInt_cases x
  rw [shrsi7]
  unfold IntOp.andi
  constructor
  · rintro ⟨h1, h2⟩
    have e1 := congrArg BitVec.toInt h1
    rw [toInt_shr7, toInt_small _ (by omega)] at e1
    have e2 := congrArg BitVec.toNat h2
    rw [toNat_and127, toNat_small _ (by omega)] at e2
    omega
  · intro hv
    constructor
    · apply BitVec.eq_of_toInt_eq
      rw [toInt_shr7, toInt_small _ (by omega)]
      omega
    · apply BitVec.eq_of_toNat_eq
      rw [toNat_and127, toNat_small _ (by omega)]
      omega

/-- The product of the two 0/1 factors of one id word x, for group i and lane l: 1 exactly when x, read signed, is 128·i + l. -/
theorem prod_bits (x : BitVec 32) (i : Fin 16) (l : Fin 128) :
    (if IntOp.shrsi .vector x 7#32 = BitVec.ofNat 32 i.val then (1 : EReal) else 0)
        * (if IntOp.andi x 127#32 = BitVec.ofNat 32 l.val then (1 : EReal) else 0)
      = if x.toInt = ((128 * i.val + l.val : Nat) : Int) then 1 else 0 := by
  by_cases hc : x.toInt = ((128 * i.val + l.val : Nat) : Int)
  · obtain ⟨h1, h2⟩ := (word_iff x i l).mpr hc
    rw [if_pos h1, if_pos h2, if_pos hc, mul_one]
  · rw [if_neg hc]
    by_cases h1 : IntOp.shrsi .vector x 7#32 = BitVec.ofNat 32 i.val
    · have h2 : ¬ IntOp.andi x 127#32 = BitVec.ofNat 32 l.val := fun h2 => hc ((word_iff x i l).mp ⟨h1, h2⟩)
      rw [if_pos h1, if_neg h2, mul_zero]
    · rw [if_neg h1, zero_mul]

/-! ## The layout operations read at an index -/

/-- An [a, b, 1] array broadcast to [a, b, c] reads, at (p, q, s), the operand at (p, q, 0). -/
theorem bcast_col3 {α : Type} {a b c : ℕ} (v : (⟨3, ![a, b, 1]⟩ : Shape).Idx → α)
    (h : (⟨3, ![a, b, 1]⟩ : Shape).Broadcasts ⟨3, ![a, b, c]⟩) (p : Fin a) (q : Fin b) (s : Fin c) :
    broadcastTo ⟨3, ![a, b, c]⟩ v h (ix3 p q s) = v (ix3 p q (0 : Fin 1)) := by
  refine broadcastTo_apply v h (ix3 p q s) (ix3 p q (0 : Fin 1)) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl
  | ⟨2, _⟩ => rfl

/-- A [1, 1, c] array broadcast to [a, b, c] reads, at (p, q, s), the operand at (0, 0, s). -/
theorem bcast_lane3 {α : Type} {a b c : ℕ} (v : (⟨3, ![1, 1, c]⟩ : Shape).Idx → α)
    (h : (⟨3, ![1, 1, c]⟩ : Shape).Broadcasts ⟨3, ![a, b, c]⟩) (p : Fin a) (q : Fin b) (s : Fin c) :
    broadcastTo ⟨3, ![a, b, c]⟩ v h (ix3 p q s) = v (ix3 (0 : Fin 1) (0 : Fin 1) s) := by
  refine broadcastTo_apply v h (ix3 p q s) (ix3 (0 : Fin 1) (0 : Fin 1) s) fun ax => ?_
  match ax with
  | ⟨0, _⟩ => rfl
  | ⟨1, _⟩ => rfl
  | ⟨2, _⟩ =>
    show s.val = if c = 1 then 0 else s.val
    split
    · have := s.isLt; omega
    · rfl

/-- An [a, b] array cast to [a, b, 1] reads, at (p, q, u), the operand at (p, q), whatever the unit coordinate u. -/
theorem cast_addlast {α : Type} {a b : ℕ} (v : (⟨2, ![a, b]⟩ : Shape).Idx → α)
    (h : (⟨2, ![a, b]⟩ : Shape).ShapeCasts ⟨3, ![a, b, 1]⟩) (p : Fin a) (q : Fin b) (u : Fin 1) :
    shapeCast ⟨3, ![a, b, 1]⟩ v h (ix3 p q u) = v (ix2 p q) :=
  shapeCast_apply v h _ _ (by
    have hu : u.val = 0 := by omega
    rw [Shape.rowMajor_val_three, Shape.rowMajor_val_two]
    show p.val * b + q.val = (p.val * b + q.val) * 1 + u.val
    rw [hu, Nat.mul_one, Nat.add_zero])

/-- The index a reduction over the ids' axis inserts: (r, l) with the id coordinate wi put back is (r, wi, l). -/
theorem lift_idx (hR : S256x41x128.Reduces [1] S256x128) (r : Fin 256) (l : Fin 128) (wi : Fin 41) :
    hR.lift (ix2 r l) wi = ix3 r wi l := by
  funext ax; apply Fin.ext
  match ax with
  | ⟨0, _⟩ => rfl
  | ⟨1, _⟩ => rfl
  | ⟨2, _⟩ => rfl

/-- The product's left operand index at output (r, h) and contraction coordinate l is (r, l). -/
theorem lhs_idx (r : Fin 256) (h : Fin 2048) (l : Fin 128) :
    Cert.KernelIdeal.dot_S256x128_S128x2048_S256x2048_1_0_0_1_n_n.lhsIdx (ix2 r h)
      ((contrEquiv1 Cert.KernelIdeal.dot_S256x128_S128x2048_S256x2048_1_0_0_1_n_n 128 rfl rfl).symm l) = ix2 r l := by
  have c2 := contrEquiv1_symm_val Cert.KernelIdeal.dot_S256x128_S128x2048_S256x2048_1_0_0_1_n_n 128 rfl rfl l
  funext ax; apply Fin.ext
  match ax with
  | ⟨0, _⟩ => simp [DotDims.lhsIdx, Cert.KernelIdeal.dot_S256x128_S128x2048_S256x2048_1_0_0_1_n_n]; rfl
  | ⟨1, _⟩ => simp [DotDims.lhsIdx, Cert.KernelIdeal.dot_S256x128_S128x2048_S256x2048_1_0_0_1_n_n]; exact c2

/-- The product's right operand index at output (r, h) and contraction coordinate l is (l, h). -/
theorem rhs_idx (r : Fin 256) (h : Fin 2048) (l : Fin 128) :
    Cert.KernelIdeal.dot_S256x128_S128x2048_S256x2048_1_0_0_1_n_n.rhsIdx (ix2 r h)
      ((contrEquiv1 Cert.KernelIdeal.dot_S256x128_S128x2048_S256x2048_1_0_0_1_n_n 128 rfl rfl).symm l) = ix2 l h := by
  have c2 := contrEquiv1_symm_val Cert.KernelIdeal.dot_S256x128_S128x2048_S256x2048_1_0_0_1_n_n 128 rfl rfl l
  funext ax; apply Fin.ext
  match ax with
  | ⟨0, _⟩ => simp [DotDims.rhsIdx, Cert.KernelIdeal.dot_S256x128_S128x2048_S256x2048_1_0_0_1_n_n]; exact c2
  | ⟨1, _⟩ => simp [DotDims.rhsIdx, Cert.KernelIdeal.dot_S256x128_S128x2048_S256x2048_1_0_0_1_n_n]; rfl

/-! ## Conditions as 0/1 extended reals, and their maximum -/

/-- A fold of max from the bottom element over 41 values, each 0 or 1, is 1 when some value is 1 and 0 otherwise
    (there are 41 > 0 values, so the bottom element never survives): by the maximum's universal property. -/
theorem fold_max_01 (f : Fin 41 → EReal) (hf : ∀ w, f w = 0 ∨ f w = 1) (P : Prop) (hP : P ↔ ∃ w, f w = 1) {dP : Decidable P} :
    (Finset.univ : Finset (Fin 41)).fold max (⊥ : EReal) f = @ite EReal P dP 1 0 := by
  by_cases h : P
  · rw [if_pos h]
    obtain ⟨w, hw⟩ := hP.mp h
    apply le_antisymm
    · rw [Finset.fold_max_le]
      refine ⟨bot_le, fun x _ => ?_⟩
      rcases hf x with e | e <;> rw [e]
      exact zero_le_one
    · rw [Finset.le_fold_max]
      exact Or.inr ⟨w, Finset.mem_univ _, hw.ge⟩
  · rw [if_neg h]
    have h0 : ∀ w, f w = 0 := fun w => by
      rcases hf w with e | e
      · exact e
      · exact absurd (hP.mpr ⟨w, e⟩) h
    apply le_antisymm
    · rw [Finset.fold_max_le]
      exact ⟨bot_le, fun x _ => (h0 x).le⟩
    · rw [Finset.le_fold_max]
      exact Or.inr ⟨(0 : Fin 41), Finset.mem_univ _, (h0 0).ge⟩

/-- The accumulator word of the maximum, bf16's −∞, is the bottom element. -/
theorem ofBits_neg_inf_bf16 : FloatOps.ofBits (F := Ideal) .bf16 0xFF80#16 = (⊥ : EReal) := by
  show Ideal.ofBits .bf16 0xFF80#16 = ⊥
  simp [Ideal.ofBits, Ideal.ieee]

/-- A one-bit word, zero-extended and converted as a signed integer, is 1 when the bit is set and 0 otherwise. -/
theorem sitofp_bit (φ : FTy) (b : BitVec 1) :
    (FloatOps.sitofp (F := Ideal) φ (b.setWidth 32) : EReal) = if b = 1#1 then 1 else 0 := by
  rcases BitVec.eq_zero_or_eq_one b with h | h <;> subst h
  · show (((BitVec.setWidth 32 0#1).toInt : ℝ) : EReal) = _
    rw [if_neg (by decide)]
    have : (BitVec.setWidth 32 0#1).toInt = 0 := by decide
    rw [this]; simp
  · show (((BitVec.setWidth 32 1#1).toInt : ℝ) : EReal) = _
    rw [if_pos rfl]
    have : (BitVec.setWidth 32 1#1).toInt = 1 := by decide
    rw [this]; simp

/-- The equality comparison's bit is set exactly when the words are equal. -/
theorem cmpi_eq_iff {w : ℕ} (x y : BitVec w) : IntOp.cmpi .eq x y = 1#1 ↔ x = y := by
  show BitVec.ofBool (x == y) = 1#1 ↔ x = y
  by_cases h : x = y
  · subst h; simp
  · have hb : (x == y) = false := beq_eq_false_iff_ne.mpr h
    rw [hb]
    exact ⟨fun e => absurd e (by decide), fun e => absurd e h⟩

/-! ## The two payloads and the mask at an index -/

/-- The high part of the id at (r, wi): the id word shifted right arithmetically by 7. -/
theorem pay3_apply (x0 : Vec Ideal S1x256x41 .i32) (r : Fin 256) (wi : Fin 41) :
    k0_pay3 (F := Ideal) x0 (ix2 r wi) = IntOp.shrsi .vector (x0 (ix3 (0 : Fin 1) r wi)) 7#32 := by
  unfold k0_pay3 k0_pay2
  show IntOp.shrsi .vector (shapeCast S256x41 x0 _ (ix2 r wi)) 7#32 = _
  rw [shapeCast_1ab_ab_apply]

/-- The lane one-hot at (r, wi, l): 1 when the id's low seven bits are l, else 0. -/
theorem pay4_apply (x0 : Vec Ideal S1x256x41 .i32) (r : Fin 256) (wi : Fin 41) (l : Fin 128) :
    (k0_pay4 (F := Ideal) x0 (ix3 r wi l) : EReal)
      = if IntOp.andi (x0 (ix3 (0 : Fin 1) r wi)) 127#32 = BitVec.ofNat 32 l.val then 1 else 0 := by
  unfold k0_pay4 k0_pay2
  show (FloatOps.sitofp (F := Ideal) .f32 ((IntOp.cmpi .eq
      (broadcastTo S256x41x128 (shapeCast S256x41x1 (andi (shapeCast S256x41 x0 _) (broadcast S256x41 127#32)) _) _ (ix3 r wi l))
      (broadcastTo S256x41x128 (iota .tc S1x1x128 32 [2] _) _ (ix3 r wi l))).setWidth 32) : EReal) = _
  rw [sitofp_bit, bcast_col3, cast_addlast, bcast_lane3, iota_single_apply]
  show (if IntOp.cmpi .eq (IntOp.andi (shapeCast S256x41 x0 _ (ix2 r wi)) 127#32) (BitVec.ofNat 32 l.val) = 1#1 then (1 : EReal) else 0) = _
  rw [shapeCast_1ab_ab_apply]
  simp only [cmpi_eq_iff]

/-- The group mask at (r, wi, l), whatever the lane: 1 when the high part at (r, wi) is the group's word, else 0. -/
theorem mask_apply (hi : IVec S256x41 32) (c : BitVec 32) (r : Fin 256) (wi : Fin 41) (l : Fin 128) :
    ((broadcastTo S256x41x128
        (shapeCast S256x41x1 (truncf .bf16 (sitofp .f32 (extui 32 (cmpi .eq hi (broadcast S256x41 c)) Facts₀.natLt_1_32)) Facts₀.bitsLt_bf16_f32)
          Facts₀.shapeCasts_S256x41_S256x41x1) Facts₀.broadcasts_S256x41x1_S256x41x128 : FVec Ideal S256x41x128 .bf16) (ix3 r wi l) : EReal)
      = if hi (ix2 r wi) = c then 1 else 0 := by
  rw [bcast_col3, cast_addlast]
  show (FloatOps.sitofp (F := Ideal) .f32 ((IntOp.cmpi .eq (hi (ix2 r wi)) c).setWidth 32) : EReal) = _
  rw [sitofp_bit]
  simp only [cmpi_eq_iff]

variable {F : FTy → Type} [FloatOps F]

/-- Group `i`'s contribution to the block's projection, as the body spells it: the mask `hi = i` (as 0/1 in bf16) times
    the lane one-hot, its maximum over the 41 ids, times 128 rows `w` of the weight block into a zero accumulator. -/
def grp (hi : IVec S256x41 32) (oh : FVec F S256x41x128 .bf16) (i : BitVec 32) (w : Vec F S128x2048 .bf16) : FVec F S256x2048 .f32 :=
  matmul Cert.KernelIdeal.dot_S256x128_S128x2048_S256x2048_1_0_0_1_n_n none
    (multiReduction .maximumf [1] S256x128
      (mulf (broadcastTo S256x41x128
          (shapeCast S256x41x1 (truncf .bf16 (sitofp .f32 (extui 32 (cmpi .eq hi (broadcast S256x41 i)) Facts₀.natLt_1_32)) Facts₀.bitsLt_bf16_f32)
            Facts₀.shapeCasts_S256x41_S256x41x1) Facts₀.broadcasts_S256x41x1_S256x41x128) oh)
      0xFF80#16 Facts₀.reduces_S256x41x128_S256x128 (.inr rfl) rfl)
    (shapeCast S128x2048 w Facts₀.shapeCasts_S128x2048_S128x2048)
    (constant S256x2048 .f32 0x00000000#32)

/-- At the extended reals, group `i` at (r, h) is the sum over its 128 lanes of the row's indicator at column 128·i + l
    times the weight rows' entry (l, h) — for EVERY id word: an id outside 0 … 2047 has a high part no group equals. -/
theorem grp_apply (x0 : Vec Ideal S1x256x41 .i32) (i : Fin 16) (w : Vec Ideal S128x2048 .bf16) (r : Fin 256) (h : Fin 2048) :
    grp (F := Ideal) (k0_pay3 x0) (k0_pay4 x0) (BitVec.ofNat 32 i.val) w (ix2 r h)
      = ∑ l : Fin 128, Cert.Spec.ind (fun wi : Fin 41 => (x0 (ix3 (0 : Fin 1) r wi) : BitVec 32)) (Cert.Spec.col i l) * w (ix2 l h) := by
  -- the product into the zero accumulator is the sum over the contraction coordinate l of (maximum at (r, l)) · w (l, h)
  unfold grp
  show FloatOps.matmul _ none _ _ (constant S256x2048 .f32 0x00000000#32) (ix2 r h) = _
  rw [Ideal.matmul_constant_zero_apply,
    ← Equiv.sum_comp (contrEquiv1 Cert.KernelIdeal.dot_S256x128_S128x2048_S256x2048_1_0_0_1_n_n 128 rfl rfl).symm]
  refine Finset.sum_congr rfl fun l _ => ?_
  rw [lhs_idx, rhs_idx, shapeCast_self]
  refine congrArg (fun t : EReal => t * w (ix2 l h)) ?_
  -- the maximum at (r, l) is the fold of max from −∞ over the 41 ids
  refine (Ideal.multiReduction_maximumf_single _ _ _ _ _ _).trans ?_
  rw [ofBits_neg_inf_bf16]
  -- every term of the maximum is 0 or 1: 1 exactly when the id, read signed, is 128·i + l
  have hterm : ∀ wi : Fin 41,
      ((mulf
          (broadcastTo S256x41x128
            (shapeCast S256x41x1
              (truncf .bf16 (sitofp .f32 (extui 32 (cmpi .eq (k0_pay3 x0) (broadcast S256x41 (BitVec.ofNat 32 i.val))) Facts₀.natLt_1_32))
                Facts₀.bitsLt_bf16_f32)
              Facts₀.shapeCasts_S256x41_S256x41x1)
            Facts₀.broadcasts_S256x41x1_S256x41x128)
          (k0_pay4 x0) : FVec Ideal S256x41x128 .bf16) ∘
        (Facts₀.reduces_S256x41x128_S256x128).lift (ix2 r l)) wi
        = if (x0 (ix3 (0 : Fin 1) r wi) : BitVec 32).toInt = (((Cert.Spec.col i l).val : Nat) : Int) then (1 : EReal) else 0 := fun wi => by
    refine (congrArg _ (lift_idx _ r l wi)).trans ?_
    rw [mulf_apply, mask_apply, pay3_apply, pay4_apply]
    exact prod_bits _ i l
  -- so their maximum is the indicator of "some id of the row is 128·i + l"
  unfold Cert.Spec.ind
  refine fold_max_01 _ (fun wi => ?_) _ ⟨?_, ?_⟩
  · by_cases hc : (x0 (ix3 (0 : Fin 1) r wi) : BitVec 32).toInt = (((Cert.Spec.col i l).val : Nat) : Int)
    · exact Or.inr ((hterm wi).trans (if_pos hc))
    · exact Or.inl ((hterm wi).trans (if_neg hc))
  · rintro ⟨wi, hw⟩
    exact ⟨wi, (hterm wi).trans (if_pos hw)⟩
  · rintro ⟨wi, hw⟩
    have e := (hterm wi).symm.trans hw
    by_cases hc : (x0 (ix3 (0 : Fin 1) r wi) : BitVec 32).toInt = (((Cert.Spec.col i l).val : Nat) : Int)
    · exact ⟨wi, hc⟩
    · rw [if_neg hc] at e
      exact absurd e zero_ne_one

end Cert.KernelIdeal.KerGroup

end
-- ==== Proof.KerBody.lean ====
/-
  What the kernel's body stores, read at an index of its block: LayerNorm of the projection of the row's indicator.

  The stored block is one shape cast of LayerNorm applied to an accumulator; the accumulator is a zero block plus the
  sixteen groups' products, added left to right, group i over rows 128·i … 128·i + 127 of the weight block. At the
  extended reals each group at (r, k) is its 128 lanes' share of Σ_n ind[n] · W[n, k], the sixteen shares regroup to the
  sum over all 2048 columns, and LayerNorm of the block at (r, h) is LayerNorm of row r at h: the row's sum over the
  word 2048.0, the centred row, the reciprocal square root of the mean square plus ε, the scale and the shift.
-/
import proofs.«408732_j42623255445785_3_alg».proof.Proof.Gen.KernelIdeal.Frame
import proofs.«408732_j42623255445785_3_alg».proof.Proof.KerGroup
import proofs.«408732_j42623255445785_3_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.KerBody

open Cert.KernelIdeal Cert.KernelIdeal.Gen Idealize.ShloMosaic Idealize.ShloMosaic.ValueIdx
open Cert.KernelIdeal.KerGroup

/-! ## The stored payload as LayerNorm of an accumulated projection, at any float instance -/

section Structure
variable {F : FTy → Type} [FloatOps F]

/-- The block's accumulated projection as the body spells it: a broadcast zero plus the sixteen groups, added left to right,
    group `i` over rows 128·i … 128·i + 127 of the weight block. -/
def acc16 (hi : IVec S256x41 32) (oh : FVec F S256x41x128 .bf16) (x1 : Vec F S2048x2048 .bf16) : FVec F S256x2048 .f32 :=
  (addf (addf (addf (addf (addf (addf (addf (addf (addf (addf (addf (addf (addf (addf (addf (addf (broadcast S256x2048 (Scalar.ofBits .f32 0x00000000#32))
      (grp hi oh 0#32 (View.ld x1 r0_1)))
      (grp hi oh 1#32 (View.ld x1 r0_2)))
      (grp hi oh 2#32 (View.ld x1 r0_3)))
      (grp hi oh 3#32 (View.ld x1 r0_4)))
      (grp hi oh 4#32 (View.ld x1 r0_5)))
      (grp hi oh 5#32 (View.ld x1 r0_6)))
      (grp hi oh 6#32 (View.ld x1 r0_7)))
      (grp hi oh 7#32 (View.ld x1 r0_8)))
      (grp hi oh 8#32 (View.ld x1 r0_9)))
      (grp hi oh 9#32 (View.ld x1 r0_10)))
      (grp hi oh 10#32 (View.ld x1 r0_11)))
      (grp hi oh 11#32 (View.ld x1 r0_12)))
      (grp hi oh 12#32 (View.ld x1 r0_13)))
      (grp hi oh 13#32 (View.ld x1 r0_14)))
      (grp hi oh 14#32 (View.ld x1 r0_15)))
      (grp hi oh 15#32 (View.ld x1 r0_16)))

/-- Each row's sum along the 2048 lanes, kept as a [256, 1] column and divided by the word `c`. -/
def rowMean (v : FVec F S256x2048 .f32) (c : BitVec 32) : FVec F S256x1 .f32 :=
  divf (shapeCast S256x1 (multiReduction .add [1] S256 v 0x00000000#32 Facts₀.reduces_S256x2048_S256 (.inl rfl) rfl) Facts₀.shapeCasts_S256_S256x1)
    (broadcast S256x1 (Scalar.ofBits .f32 c))

/-- A [256, 1] column spread over the 2048 lanes. -/
def spread (col : FVec F S256x1 .f32) : FVec F S256x2048 .f32 := broadcastTo S256x2048 col Facts₀.broadcasts_S256x1_S256x2048

/-- A [1, 2048] row spread over the 256 rows. -/
def spreadRow (g : Vec F S1x2048 .f32) : FVec F S256x2048 .f32 :=
  broadcastTo S256x2048 (shapeCast S1x2048 g Facts₀.shapeCasts_S1x2048_S1x2048) Facts₀.broadcasts_S1x2048_S256x2048

/-- The block with each row's mean (its sum over 2048.0) taken off. -/
def ctr (acc : FVec F S256x2048 .f32) : FVec F S256x2048 .f32 := subf acc (spread (rowMean acc 0x45000000#32))

/-- LayerNorm of each row of a [256, 2048] block along its 2048 lanes, scaled by the row `g` and shifted by the row `b`,
    as the body spells it: the centred row times the reciprocal square root of its mean square plus ε. -/
def lnBlk (acc : FVec F S256x2048 .f32) (g b : Vec F S1x2048 .f32) : FVec F S256x2048 .f32 :=
  addf (mulf (mulf (ctr acc)
      (spread (rsqrt (addf (rowMean (mulf (ctr acc) (ctr acc)) 0x45000000#32) (broadcast S256x1 (Scalar.ofBits .f32 0x3727C5AC#32))))))
      (spreadRow g))
    (spreadRow b)

set_option maxRecDepth 65536 in
/-- The nest of payloads the body stores is the shape cast of LayerNorm of the accumulated projection: with every payload
    opened, the two sides are the same sequence of operations (the mask columns and the slice carried between the body's
    parts are sub-terms of the group that follows them). -/
theorem nest_eq (v0 : Vec F S1x256x41 .i32) (x1 : Vec F S2048x2048 .bf16) (g b : Vec F S1x2048 .f32) :
    k0_pay1 (k0_pay4 v0) (k0_pay11 (k0_pay3 v0) (k0_pay4 v0) (k0_pay10 (k0_pay3 v0) (k0_pay4 v0) (k0_pay8 (k0_pay3 v0) (k0_pay4 v0) (k0_pay6 (k0_pay3 v0) (k0_pay4 v0) (k0_pay5 v0 (View.ld x1 r0_1) (View.ld x1 r0_2)) 2#32 (View.ld x1 r0_3) (View.ld x1 r0_4) (View.ld x1 r0_5)) (k0_pay7 (F := F) (k0_pay3 v0)) (View.ld x1 r0_6) (View.ld x1 r0_7) (View.ld x1 r0_8)) (k0_pay9 (k0_pay3 v0) (k0_pay4 v0)) (View.ld x1 r0_9) (View.ld x1 r0_10) (View.ld x1 r0_11) (View.ld x1 r0_12)) 12#32 (View.ld x1 r0_13) (View.ld x1 r0_14) (View.ld x1 r0_15)) (k0_pay12 (F := F) (k0_pay3 v0)) (View.ld x1 r0_16) g b
      = shapeCast S1x256x2048 (lnBlk (acc16 (k0_pay3 v0) (k0_pay4 v0) x1) g b) Facts₀.shapeCasts_S256x2048_S1x256x2048 := by
  unfold k0_pay1 k0_pay5 k0_pay6 k0_pay7 k0_pay8 k0_pay9 k0_pay10 k0_pay11 k0_pay12 lnBlk ctr spreadRow spread rowMean acc16 grp
  rfl

end Structure

/-! ## The keepdims forms of a row reduction, read at an index -/

section Layout
variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## LayerNorm of the block, read at an index -/

/-- The sum of a [256, 2048] block along its lanes, at row `r`: the sum over the 2048 columns of that row. -/
theorem rowSum_apply (v : FVec Ideal S256x2048 .f32) (r : Fin 256) :
    multiReduction .add [1] S256 v 0x00000000#32 Facts₀.reduces_S256x2048_S256 (.inl rfl) rfl (ix1 r)
      = ∑ k : Fin 2048, v (ix2 r k) := by
  refine (Ideal.multiReduction_add_single v _ Facts₀.reduces_S256x2048_S256 _ _ (ix1 r)).trans ?_
  show ∑ k : Fin 2048, v (Facts₀.reduces_S256x2048_S256.lift (ix1 r) k) = _
  refine Finset.sum_congr rfl fun k _ => congrArg v ?_
  funext a
  match a with
  | ⟨0, _⟩ => rfl
  | ⟨1, _⟩ => rfl

/-- The row's sum over the word `c`, at row `r` of the [256, 1] column. -/
theorem rowMean_apply (v : FVec Ideal S256x2048 .f32) (c : BitVec 32) (r : Fin 256) (u : Fin 1) :
    rowMean v c (ix2 r u) = Ideal.div (∑ k : Fin 2048, v (ix2 r k)) (Ideal.ofBits .f32 c) := by
  unfold rowMean
  refine (divf_apply _ _ _).trans ?_
  refine congrArg₂ Ideal.div ?_ rfl
  refine (shapeCast_a_a1_apply _ Facts₀.shapeCasts_S256_S256x1 r u).trans ?_
  exact rowSum_apply v r

/-- A spread column reads its row's entry at every lane. -/
theorem spread_apply (col : FVec Ideal S256x1 .f32) (r : Fin 256) (h : Fin 2048) : spread col (ix2 r h) = col (ix2 r (0 : Fin 1)) :=
  broadcastTo_a1_ab_apply col Facts₀.broadcasts_S256x1_S256x2048 r h

/-- A spread row reads its lane's entry at every row. -/
theorem spreadRow_apply (g : Vec Ideal S1x2048 .f32) (r : Fin 256) (h : Fin 2048) : spreadRow g (ix2 r h) = g (ix2 (0 : Fin 1) h) := by
  unfold spreadRow
  refine (broadcastTo_1b_ab_apply _ Facts₀.broadcasts_S1x2048_S256x2048 r h).trans ?_
  exact congrFun (shapeCast_self g Facts₀.shapeCasts_S1x2048_S1x2048) _

/-- The centred block at (r, k): the entry less the row's sum over 2048.0. -/
theorem ctr_apply (acc : FVec Ideal S256x2048 .f32) (r : Fin 256) (k : Fin 2048) :
    ctr acc (ix2 r k) = acc (ix2 r k) - Ideal.div (∑ k : Fin 2048, acc (ix2 r k)) Cert.Spec.c2048 := by
  unfold ctr
  refine (subf_apply _ _ _).trans ?_
  refine congrArg (acc (ix2 r k) - ·) ?_
  exact (spread_apply _ r k).trans (rowMean_apply acc _ r 0)

/-- LayerNorm of the block at (r, h) is the row's LayerNorm at h. -/
theorem lnBlk_apply (acc : FVec Ideal S256x2048 .f32) (g b : Vec Ideal S1x2048 .f32) (r : Fin 256) (h : Fin 2048) :
    lnBlk acc g b (ix2 r h)
      = Cert.Spec.lnRow (fun k => acc (ix2 r k)) (fun k => g (ix2 (0 : Fin 1) k)) (fun k => b (ix2 (0 : Fin 1) k)) h := by
  show lnBlk acc g b (ix2 r h)
      = (acc (ix2 r h) - Ideal.div (∑ k : Fin 2048, acc (ix2 r k)) Cert.Spec.c2048)
        * Ideal.rsqrt (Ideal.div (∑ k : Fin 2048, (acc (ix2 r k) - Ideal.div (∑ k : Fin 2048, acc (ix2 r k)) Cert.Spec.c2048)
            * (acc (ix2 r k) - Ideal.div (∑ k : Fin 2048, acc (ix2 r k)) Cert.Spec.c2048)) Cert.Spec.c2048 + Cert.Spec.ceps)
        * g (ix2 (0 : Fin 1) h) + b (ix2 (0 : Fin 1) h)
  unfold lnBlk
  refine (addf_apply _ _ _).trans ?_
  refine congrArg₂ (· + ·) ?_ (spreadRow_apply b r h)
  refine (mulf_apply _ _ _).trans ?_
  refine congrArg₂ (· * ·) ?_ (spreadRow_apply g r h)
  refine (mulf_apply _ _ _).trans ?_
  refine congrArg₂ (· * ·) (ctr_apply acc r h) ?_
  refine (spread_apply _ r h).trans ?_
  show Ideal.rsqrt (rowMean (mulf (ctr acc) (ctr acc)) 0x45000000#32 (ix2 r (0 : Fin 1)) + Cert.Spec.ceps) = _
  refine congrArg Ideal.rsqrt (congrArg (· + Cert.Spec.ceps) ?_)
  refine (rowMean_apply _ _ r 0).trans ?_
  refine congrArg (Ideal.div · Cert.Spec.c2048) (Finset.sum_congr rfl fun k _ => ?_)
  exact (mulf_apply _ _ _).trans (congrArg₂ (· * ·) (ctr_apply acc r k) (ctr_apply acc r k))

/-! ## The accumulated projection, read at an index -/

/-- A load of 128 rows of the weight block from row `off`, at (l, k): the block's entry at row `off + l`, column k. -/
theorem ld_rows (x1 : Vec Ideal S2048x2048 .bf16) (off : ℕ)
    (inb : ∀ a, (![off, 0] : Fin 2 → ℕ) a + S128x2048.size a ≤ S2048x2048.size a) (l : Fin 128) (k : Fin 2048) (n : Fin 2048)
    (hn : n.val = off + l.val) :
    View.ld x1 (Rect.unit (s := S2048x2048) ![off, 0] S128x2048.size inb) (ix2 l k) = x1 (ix2 n k) := by
  refine congrArg x1 ?_
  funext a
  match a with
  | ⟨0, _⟩ => exact Fin.ext (by show off + 1 * l.val = n.val; omega)
  | ⟨1, _⟩ => exact Fin.ext (by show 0 + 1 * k.val = k.val; omega)

/-- A sum of two blocks at an index, from what each is there. -/
theorem addf_congr {s : Shape} (A B : FVec Ideal s .f32) (i : s.Idx) {a b : EReal} (h1 : A i = a) (h2 : B i = b) :
    addf A B i = a + b := by
  rw [addf_apply, h1, h2]

/-- Sixteen terms added left to right onto zero are their sum over `Fin 16`. -/
theorem sum16 (G : Fin 16 → EReal) :
    0 + G 0 + G 1 + G 2 + G 3 + G 4 + G 5 + G 6 + G 7 + G 8 + G 9 + G 10 + G 11 + G 12 + G 13 + G 14 + G 15 = ∑ i : Fin 16, G i := by
  simp only [Fin.sum_univ_castSucc, Fin.sum_univ_zero]
  rfl

/-- The accumulated projection at (r, k) is the projection of row r's indicator by column k of the weight block: group i
    is the sum over its 128 lanes of ind[128·i + l] · W[128·i + l, k], and the sixteen groups are the sum over the 2048
    columns regrouped. -/
theorem acc16_apply (x0 : Vec Ideal S1x256x41 .i32) (x1 : Vec Ideal S2048x2048 .bf16) (r : Fin 256) (k : Fin 2048) :
    acc16 (F := Ideal) (k0_pay3 x0) (k0_pay4 x0) x1 (ix2 r k)
      = Cert.Spec.proj (fun wi : Fin 41 => (x0 (ix3 (0 : Fin 1) r wi) : BitVec 32)) (fun h' n => x1 (ix2 n h')) k := by
  let f : Fin 2048 → EReal := fun n => Cert.Spec.ind (fun wi : Fin 41 => (x0 (ix3 (0 : Fin 1) r wi) : BitVec 32)) n * x1 (ix2 n k)
  have e : ∀ (i : Fin 16) (w : Vec Ideal S128x2048 .bf16), (∀ l : Fin 128, w (ix2 l k) = x1 (ix2 (Cert.Spec.col i l) k)) →
      grp (F := Ideal) (k0_pay3 x0) (k0_pay4 x0) (BitVec.ofNat 32 i.val) w (ix2 r k) = ∑ l : Fin 128, f (Cert.Spec.col i l) :=
    fun i w hw => (grp_apply x0 i w r k).trans (Finset.sum_congr rfl fun l _ =>
      congrArg (Cert.Spec.ind (fun wi : Fin 41 => (x0 (ix3 (0 : Fin 1) r wi) : BitVec 32)) (Cert.Spec.col i l) * ·) (hw l))
  have ofBits0 : broadcast S256x2048 (Scalar.ofBits (F := Ideal) .f32 0x00000000#32) (ix2 r k) = (0 : EReal) := Ideal.ofBits_zero_f32
  have hsum : acc16 (F := Ideal) (k0_pay3 x0) (k0_pay4 x0) x1 (ix2 r k)
      = 0 + (∑ l : Fin 128, f (Cert.Spec.col 0 l)) + (∑ l : Fin 128, f (Cert.Spec.col 1 l)) + (∑ l : Fin 128, f (Cert.Spec.col 2 l)) + (∑ l : Fin 128, f (Cert.Spec.col 3 l)) + (∑ l : Fin 128, f (Cert.Spec.col 4 l)) + (∑ l : Fin 128, f (Cert.Spec.col 5 l)) + (∑ l : Fin 128, f (Cert.Spec.col 6 l)) + (∑ l : Fin 128, f (Cert.Spec.col 7 l)) + (∑ l : Fin 128, f (Cert.Spec.col 8 l)) + (∑ l : Fin 128, f (Cert.Spec.col 9 l)) + (∑ l : Fin 128, f (Cert.Spec.col 10 l)) + (∑ l : Fin 128, f (Cert.Spec.col 11 l)) + (∑ l : Fin 128, f (Cert.Spec.col 12 l)) + (∑ l : Fin 128, f (Cert.Spec.col 13 l)) + (∑ l : Fin 128, f (Cert.Spec.col 14 l)) + (∑ l : Fin 128, f (Cert.Spec.col 15 l)) :=
    (addf_congr _ _ _ (addf_congr _ _ _ (addf_congr _ _ _ (addf_congr _ _ _ (addf_congr _ _ _ (addf_congr _ _ _ (addf_congr _ _ _ (addf_congr _ _ _ (addf_congr _ _ _ (addf_congr _ _ _ (addf_congr _ _ _ (addf_congr _ _ _ (addf_congr _ _ _ (addf_congr _ _ _ (addf_congr _ _ _ (addf_congr _ _ _ ofBits0
      (e 0 (View.ld x1 r0_1) fun l => ld_rows x1 0 _ l k (Cert.Spec.col 0 l) rfl))
      (e 1 (View.ld x1 r0_2) fun l => ld_rows x1 128 _ l k (Cert.Spec.col 1 l) rfl))
      (e 2 (View.ld x1 r0_3) fun l => ld_rows x1 256 _ l k (Cert.Spec.col 2 l) rfl))
      (e 3 (View.ld x1 r0_4) fun l => ld_rows x1 384 _ l k (Cert.Spec.col 3 l) rfl))
      (e 4 (View.ld x1 r0_5) fun l => ld_rows x1 512 _ l k (Cert.Spec.col 4 l) rfl))
      (e 5 (View.ld x1 r0_6) fun l => ld_rows x1 640 _ l k (Cert.Spec.col 5 l) rfl))
      (e 6 (View.ld x1 r0_7) fun l => ld_rows x1 768 _ l k (Cert.Spec.col 6 l) rfl))
      (e 7 (View.ld x1 r0_8) fun l => ld_rows x1 896 _ l k (Cert.Spec.col 7 l) rfl))
      (e 8 (View.ld x1 r0_9) fun l => ld_rows x1 1024 _ l k (Cert.Spec.col 8 l) rfl))
      (e 9 (View.ld x1 r0_10) fun l => ld_rows x1 1152 _ l k (Cert.Spec.col 9 l) rfl))
      (e 10 (View.ld x1 r0_11) fun l => ld_rows x1 1280 _ l k (Cert.Spec.col 10 l) rfl))
      (e 11 (View.ld x1 r0_12) fun l => ld_rows x1 1408 _ l k (Cert.Spec.col 11 l) rfl))
      (e 12 (View.ld x1 r0_13) fun l => ld_rows x1 1536 _ l k (Cert.Spec.col 12 l) rfl))
      (e 13 (View.ld x1 r0_14) fun l => ld_rows x1 1664 _ l k (Cert.Spec.col 13 l) rfl))
      (e 14 (View.ld x1 r0_15) fun l => ld_rows x1 1792 _ l k (Cert.Spec.col 14 l) rfl))
      (e 15 (View.ld x1 r0_16) fun l => ld_rows x1 1920 _ l k (Cert.Spec.col 15 l) rfl))
  refine hsum.trans ?_
  refine (sum16 fun i => ∑ l : Fin 128, f (Cert.Spec.col i l)).trans ?_
  exact (Cert.Spec.sum_groups f).symm

/-! ## The stored block -/

/-- The all-zero offsets of a rank-3 and of a rank-2 rectangle, as constant functions. -/
theorem hz3 : (![0, 0, 0] : Fin 3 → ℕ) = fun _ => 0 := funext fun a => by fin_cases a <;> rfl
theorem hz2 : (![0, 0] : Fin 2 → ℕ) = fun _ => 0 := funext fun a => by fin_cases a <;> rfl

/-- The body's stored block is the shape cast of LayerNorm of the accumulated projection: its one store covers the
    block, and the loads of the id block and of the two rows read them whole. -/
theorem out_eq (x0 : Vec Ideal S1x256x41 .i32) (x1 : Vec Ideal S2048x2048 .bf16) (x2 x3 : Vec Ideal S1x2048 .f32) :
    out0_4 x0 x1 x2 x3
      = shapeCast S1x256x2048 (lnBlk (acc16 (k0_pay3 x0) (k0_pay4 x0) x1) x2 x3) Facts₀.shapeCasts_S256x2048_S1x256x2048 := by
  unfold out0_4
  refine (View.canon_unit_zero hz3 _ _).trans ?_
  have h0 : View.ld x0 r0_0 = x0 := View.ld_unit_zero (S := S1x256x41) hz3 _ x0
  have h2 : View.ld x2 r0_17 = x2 := View.ld_unit_zero (S := S1x2048) hz2 _ x2
  have h3 : View.ld x3 r0_17 = x3 := View.ld_unit_zero (S := S1x2048) hz2 _ x3
  rw [h0, h2, h3]
  exact nest_eq x0 x1 x2 x3

/-- The body's stored block at (0, r, h), from the id block `x0`, the whole weight block `x1` (row n, column h) and the
    scale and shift rows `x2`, `x3`. -/
theorem out_apply (x0 : Vec Ideal S1x256x41 .i32) (x1 : Vec Ideal S2048x2048 .bf16) (x2 x3 : Vec Ideal S1x2048 .f32)
    (r : Fin 256) (h : Fin 2048) :
    out0_4 x0 x1 x2 x3 (ix3 (0 : Fin 1) r h)
      = Cert.Spec.lnRow
          (Cert.Spec.proj (fun wi : Fin 41 => (x0 (ix3 (0 : Fin 1) r wi) : BitVec 32)) (fun h' n => x1 (ix2 n h')))
          (fun k => x2 (ix2 (0 : Fin 1) k)) (fun k => x3 (ix2 (0 : Fin 1) k)) h := by
  refine (congrFun (out_eq x0 x1 x2 x3) _).trans ?_
  refine (shapeCast_ab_1ab_apply _ Facts₀.shapeCasts_S256x2048_S1x256x2048 (0 : Fin 1) r h).trans ?_
  refine (lnBlk_apply _ x2 x3 r h).trans ?_
  exact congrArg (fun x => Cert.Spec.lnRow x (fun k => x2 (ix2 (0 : Fin 1) k)) (fun k => x3 (ix2 (0 : Fin 1) k)) h)
    (funext fun k => acc16_apply x0 x1 r k)

end Cert.KernelIdeal.KerBody

end
-- ==== Proof.KerValue.lean ====
/-
  The kernel's result array after its run is the specification of its arguments: every grid point writes its block of it.
-/
import proofs.«408732_j42623255445785_3_alg».proof.Defs
import proofs.«408732_j42623255445785_3_alg».proof.Proof.Gen.KernelIdeal.Value
import proofs.«408732_j42623255445785_3_alg».proof.Proof.KerBody
import proofs.«408732_j42623255445785_3_alg».proof.Proof.Spec
import Idealize.ShloMosaic.Lib.ValueIdx
import Idealize.ShloMosaic.Lib.Pipeline.Value
import Idealize.ShloMosaic.Lib.StableHlo.Run

noncomputable section

open scoped BigOperators

namespace Cert.KernelIdeal.KerValue

open Cert.KernelIdeal Cert.KernelIdeal.Gen Cert.KernelIdeal.Value Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The weight window's array as the region finds it: the weight argument transposed, its float format changed. -/
theorem V_weight (c : Dev nD) : (V m c main_v1 : S2048x2048.Idx → EReal)
    = (truncf (F := Ideal) .bf16 (transpose S2048x2048 [1, 0] (m ((c : Thread nD τ).loc main_arg1) : FVec Ideal S2048x2048 .f32) transposes_S2048x2048_S2048x2048_1_0) bitsLt_bf16_f32 : FVec Ideal S2048x2048 .bf16) := by
  dsimp only [Gen.V, Gen.hostOps0]; after_results

/-- The scale window's array as the region finds it: the scale argument as one row. -/
theorem V_scale (c : Dev nD) : (V m c main_v2 : S1x2048.Idx → EReal)
    = shapeCast S1x2048 (m ((c : Thread nD τ).loc main_arg2) : S2048.Idx → EReal) shapeCasts_S2048_S1x2048 := by
  dsimp only [Gen.V, Gen.hostOps0]; after_results; rfl

/-- The shift window's array as the region finds it: the shift argument as one row. -/
theorem V_shift (c : Dev nD) : (V m c main_v3 : S1x2048.Idx → EReal)
    = shapeCast S1x2048 (m ((c : Thread nD τ).loc main_arg3) : S2048.Idx → EReal) shapeCasts_S2048_S1x2048 := by
  dsimp only [Gen.V, Gen.hostOps0]; after_results; rfl

/-- Entry (n, h) of the transposed weights is entry (h, n) of the weight argument; at the extended reals the change of
    float format is the identity. -/
theorem weight_apply (pw : S2048x2048.Idx → EReal) (n h : Fin 2048) :
    (truncf (F := Ideal) .bf16 (transpose S2048x2048 [1, 0] (pw : FVec Ideal S2048x2048 .f32) transposes_S2048x2048_S2048x2048_1_0) bitsLt_bf16_f32 : FVec Ideal S2048x2048 .bf16) (ix2 n h)
      = pw (ix2 h n) := by
  rw [truncf_apply]
  refine transpose_apply _ _ _ (ix2 n h) (ix2 h n) fun b => ?_
  match b with
  | ⟨0, _⟩ => rfl
  | ⟨1, _⟩ => rfl

/-- Entry (0, k) of a row of 2048 read as a [1, 2048] array is its entry k. -/
theorem row_apply (g : S2048.Idx → EReal) (k : Fin 2048) :
    shapeCast S1x2048 g shapeCasts_S2048_S1x2048 (ix2 (0 : Fin 1) k) = g (ix1 k) := by
  refine shapeCast_apply _ _ (ix2 (0 : Fin 1) k) (ix1 k) ?_
  rw [Shape.rowMajor_val_one, Shape.rowMajor_val_two]
  show k.val = (0 : Nat) * 2048 + k.val
  omega

/-- The printed index maps, decided once over the 64 grid points: the id window moves with the result window on the batch
    and row-block axes and stays at 0 on the id axis; the weight, scale and shift windows stay at block (0, 0); the result
    window's block indices stay in their ranges. -/
theorem index_facts : ∀ t : Fin cfg0.N,
    win0_0.index t (0 : Fin 3) = win0_4.index t (0 : Fin 3)
    ∧ win0_0.index t (1 : Fin 3) = win0_4.index t (1 : Fin 3)
    ∧ win0_0.index t (2 : Fin 3) = 0
    ∧ win0_4.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 3) ≤ 3 ∧ win0_4.index t (1 : Fin 3) ≤ 15 :=
  (by decide +kernel : ∀ t : Fin grid0.N, _)

/-- Every (batch, row block) pair is SOME grid point's result block. -/
theorem index_onto : ∀ (b : Fin 4) (st : Fin 16), ∃ t : Fin cfg0.N, win0_4.index t = ![b.val, st.val, 0] :=
  (by decide +kernel : ∀ (b : Fin 4) (st : Fin 16), ∃ t : Fin grid0.N, win0_4.index t = ![b.val, st.val, 0])

/-- ONE ELEMENT of the block a point stores: when the id block is rows 256·st … 256·st + 255 of batch b of the id array, the
    weight block the transposed weights, and the scale and shift blocks the scale and shift rows, the body's result at
    (0, r, h) is the specification at (b, 256·st + r, h). -/
theorem point_eq (ids : S4x4096x41.Idx → BitVec 32) (pw : S2048x2048.Idx → EReal) (g bt : S2048.Idx → EReal)
    (b : Fin 4) (st : Fin 16)
    (x0 : Vec Ideal S1x256x41 .i32) (x1 : Vec Ideal S2048x2048 .bf16) (x2 x3 : Vec Ideal S1x2048 .f32)
    (y : S1x256x2048.Idx) (i : S4x4096x2048.Idx)
    (hi0 : (i 0).val = b.val) (hi1 : (i 1).val = 256 * st.val + (y 1).val) (hi2 : (i 2).val = (y 2).val)
    (h0 : ∀ (r : Fin 256) (w : Fin 41) (s : Fin 4096), s.val = 256 * st.val + r.val →
      x0 (ix3 (0 : Fin 1) r w) = ids (ix3 b s w))
    (h1 : ∀ n h : Fin 2048, x1 (ix2 n h) = pw (ix2 h n))
    (h2 : ∀ k : Fin 2048, x2 (ix2 (0 : Fin 1) k) = g (ix1 k))
    (h3 : ∀ k : Fin 2048, x3 (ix2 (0 : Fin 1) k) = bt (ix1 k)) :
    out0_4 x0 x1 x2 x3 y = Cert.Spec.G ids pw g bt i := by
  have hy0 : (y 0).val < 1 := (y 0).isLt
  obtain ⟨r, h, rfl⟩ : ∃ (r : Fin 256) (h : Fin 2048), y = ix3 (0 : Fin 1) r h :=
    ⟨y 1, y 2, funext fun a => by
      match a with
      | ⟨0, _⟩ => exact Fin.ext (by show (y 0).val = 0; omega)
      | ⟨1, _⟩ => rfl
      | ⟨2, _⟩ => rfl⟩
  obtain ⟨b', s, h', rfl⟩ : ∃ (b' : Fin 4) (s : Fin 4096) (h' : Fin 2048), i = ix3 b' s h' := ⟨i 0, i 1, i 2, eq_ix3 i⟩
  obtain rfl : b' = b := Fin.ext hi0
  obtain rfl : h' = h := Fin.ext hi2
  rw [KerBody.out_apply, Cert.Spec.G_ix3]
  unfold Cert.Spec.G3
  have e0 : (fun wi : Fin 41 => (x0 (ix3 (0 : Fin 1) r wi) : BitVec 32)) = Cert.Spec.row ids b' s :=
    funext fun w => h0 r w s hi1
  have e1 : (fun h' n : Fin 2048 => x1 (ix2 n h')) = fun h' n : Fin 2048 => pw (ix2 h' n) :=
    funext fun h' => funext fun n => h1 n h'
  have e2 : (fun k : Fin 2048 => x2 (ix2 (0 : Fin 1) k)) = fun k : Fin 2048 => g (ix1 k) := funext h2
  have e3 : (fun k : Fin 2048 => x3 (ix2 (0 : Fin 1) k)) = fun k : Fin 2048 => bt (ix1 k) := funext h3
  rw [e0, e1, e2, e3]

/-- An element of the id window's block at point t is the id argument at the block's place in it: on each axis the block
    index times the block's size plus the coordinate inside the block. -/
theorem ids_block (c : Dev nD) (t : Fin cfg0.N) (x : S1x256x41.Idx) (k : S4x4096x41.Idx)
    (hk0 : (k 0).val = win0_0.index t (0 : Fin 3) * 1 + 1 * (x 0).val)
    (hk1 : (k 1).val = win0_0.index t (1 : Fin 3) * 256 + 1 * (x 1).val)
    (hk2 : (k 2).val = win0_0.index t (2 : Fin 3) * 41 + 1 * (x 2).val) :
    (iblk m c 0 t : Vec Ideal S1x256x41 .i32) x = (m ((c : Thread nD τ).loc main_arg0) : S4x4096x41.Idx → BitVec 32) k := by
  unfold iblk
  rw [View.read_apply]
  show V m c main_arg0 (((cfg0.win 0).blk t).view.emb x) = _
  rw [V_main_arg0]
  show (m ((c : Thread nD τ).loc main_arg0) : S4x4096x41.Idx → BitVec 32) (((cfg0.win 0).blk t).view.emb x) = _
  refine congrArg _ (funext fun a => Fin.ext ?_)
  match a with
  | ⟨0, _⟩ => exact hk0.symm
  | ⟨1, _⟩ => exact hk1.symm
  | ⟨2, _⟩ => exact hk2.symm

/-- The weight window's block at any point is the whole of its array: its block index is (0, 0) and its block is the
    array's size. -/
theorem weight_block (c : Dev nD) (t : Fin cfg0.N) (x : S2048x2048.Idx) :
    (iblk m c 1 t : Vec Ideal S2048x2048 .bf16) x = (V m c main_v1 : S2048x2048.Idx → EReal) x := by
  obtain ⟨-, -, -, -, e0, e1, -⟩ := index_facts t
  unfold iblk
  rw [View.read_apply]
  show (V m c main_v1 : S2048x2048.Idx → EReal) (((cfg0.win 1).blk t).view.emb x) = _
  refine congrArg _ (funext fun a => Fin.ext ?_)
  match a with
  | ⟨0, _⟩ => show win0_1.index t (0 : Fin 2) * 2048 + 1 * (x 0).val = (x 0).val; rw [e0]; omega
  | ⟨1, _⟩ => show win0_1.index t (1 : Fin 2) * 2048 + 1 * (x 1).val = (x 1).val; rw [e1]; omega

/-- The scale window's block at any point is the whole of its array. -/
theorem scale_block (c : Dev nD) (t : Fin cfg0.N) (x : S1x2048.Idx) :
    (iblk m c 2 t : Vec Ideal S1x2048 .f32) x = (V m c main_v2 : S1x2048.Idx → EReal) x := by
  obtain ⟨-, -, -, -, -, -, e0, e1, -⟩ := index_facts t
  unfold iblk
  rw [View.read_apply]
  show (V m c main_v2 : S1x2048.Idx → EReal) (((cfg0.win 2).blk t).view.emb x) = _
  refine congrArg _ (funext fun a => Fin.ext ?_)
  match a with
  | ⟨0, _⟩ => show win0_2.index t (0 : Fin 2) * 1 + 1 * (x 0).val = (x 0).val; rw [e0]; omega
  | ⟨1, _⟩ => show win0_2.index t (1 : Fin 2) * 2048 + 1 * (x 1).val = (x 1).val; rw [e1]; omega

/-- The shift window's block at any point is the whole of its array. -/
theorem shift_block (c : Dev nD) (t : Fin cfg0.N) (x : S1x2048.Idx) :
    (iblk m c 3 t : Vec Ideal S1x2048 .f32) x = (V m c main_v3 : S1x2048.Idx → EReal) x := by
  obtain ⟨-, -, -, -, -, -, -, -, e0, e1, -⟩ := index_facts t
  unfold iblk
  rw [View.read_apply]
  show (V m c main_v3 : S1x2048.Idx → EReal) (((cfg0.win 3).blk t).view.emb x) = _
  refine congrArg _ (funext fun a => Fin.ext ?_)
  match a with
  | ⟨0, _⟩ => show win0_3.index t (0 : Fin 2) * 1 + 1 * (x 0).val = (x 0).val; rw [e0]; omega
  | ⟨1, _⟩ => show win0_3.index t (1 : Fin 2) * 2048 + 1 * (x 1).val = (x 1).val; rw [e1]; omega

/-- WHAT POINT t WRITES BACK is block t of the specification of the argument arrays. -/
theorem flushed_eq (c : Dev nD) (t : Fin cfg0.N) :
    (dats m 0 c).flushed 4 t = ((cfg0.win 4).blk t).view.read (Elt Ideal)
      (Cert.Spec.G (m ((c : Thread nD τ).loc main_arg0)) (m ((c : Thread nD τ).loc main_arg1))
          (m ((c : Thread nD τ).loc main_arg2)) (m ((c : Thread nD τ).loc main_arg3))) := by
  rw [Value.flushed4]
  obtain ⟨e00, e01, e02, e42, -, -, -, -, -, -, hb, hst⟩ := index_facts t
  funext j
  rw [View.read_apply]
  show out0_4 (iblk m c 0 t) (iblk m c 1 t) (iblk m c 2 t) (iblk m c 3 t) ((cfg0.win 4).xinj (grid0.coords t) j)
    = Cert.Spec.G (m ((c : Thread nD τ).loc main_arg0)) (m ((c : Thread nD τ).loc main_arg1))
        (m ((c : Thread nD τ).loc main_arg2)) (m ((c : Thread nD τ).loc main_arg3)) (((cfg0.win 4).blk t).view.emb j)
  refine point_eq _ _ _ _ ⟨win0_4.index t (0 : Fin 3), by omega⟩ ⟨win0_4.index t (1 : Fin 3), by omega⟩ _ _ _ _ _ _
    ?_ ?_ ?_ (fun r w s hs => ?_) (fun n h => ?_) (fun k => ?_) (fun k => ?_)
  · show win0_4.index t (0 : Fin 3) * 1 + 1 * (j 0).val = win0_4.index t (0 : Fin 3)
    have hj : (j 0).val < 1 := (j 0).isLt
    omega
  · show win0_4.index t (1 : Fin 3) * 256 + 1 * (j 1).val = 256 * win0_4.index t (1 : Fin 3) + (j 1).val
    omega
  · show win0_4.index t (2 : Fin 3) * 2048 + 1 * (j 2).val = (j 2).val
    rw [e42]; omega
  · refine ids_block m c t _ _ ?_ ?_ ?_
    · show win0_4.index t (0 : Fin 3) = win0_0.index t (0 : Fin 3) * 1 + 1 * 0
      omega
    · show s.val = win0_0.index t (1 : Fin 3) * 256 + 1 * r.val
      have hs' : s.val = 256 * win0_4.index t (1 : Fin 3) + r.val := hs
      omega
    · show w.val = win0_0.index t (2 : Fin 3) * 41 + 1 * w.val
      rw [e02]; omega
  · rw [weight_block, V_weight]
    exact weight_apply _ n h
  · rw [scale_block, V_scale]
    exact row_apply _ k
  · rw [shift_block, V_shift]
    exact row_apply _ k

/-- An index of the result array is in point t's block iff each coordinate is in the block's range on its axis. -/
theorem mem_block (t : Fin cfg0.N) (i : S4x4096x2048.Idx) :
    i ∈ ((cfg0.win 4).blk t).view.set ↔ ∀ a : Fin 3, win0_4.index t a * S1x256x2048.size a ≤ (i a).val ∧ (i a).val < win0_4.index t a * S1x256x2048.size a + S1x256x2048.size a := by
  show i ∈ ((View.whole main_v4).slice (win0_4.rect t)).set ↔ _
  rw [View.set_slice_whole, Rect.mem_set_unit]
  exact Iff.rfl

/-- THE COVER: index (b, s, h) of the result array is in the block of the point whose block index is (b, s / 256, 0). -/
theorem covered (i : S4x4096x2048.Idx) :
    ∃ t : Fin cfg0.N, (cfg0.win 4).flush t = true ∧ i ∈ ((cfg0.win 4).blk t).view.set := by
  have hi0 : (i 0).val < 4 := (i 0).isLt
  have hi1 : (i 1).val < 4096 := (i 1).isLt
  have hi2 : (i 2).val < 2048 := (i 2).isLt
  obtain ⟨t, ht⟩ := index_onto ⟨(i 0).val, hi0⟩ ⟨(i 1).val / 256, by omega⟩
  have q0 : win0_4.index t (0 : Fin 3) = (i 0).val := congrFun ht 0
  have q1 : win0_4.index t (1 : Fin 3) = (i 1).val / 256 := congrFun ht 1
  have q2 : win0_4.index t (2 : Fin 3) = 0 := congrFun ht 2
  refine ⟨t, flush0_4 t, ?_⟩
  rw [mem_block]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 256 ≤ (i 1).val ∧ (i 1).val < win0_4.index t (1 : Fin 3) * 256 + 256; omega
  | ⟨2, _⟩ => show win0_4.index t (2 : Fin 3) * 2048 ≤ (i 2).val ∧ (i 2).val < win0_4.index t (2 : Fin 3) * 2048 + 2048; omega

/-- The result array after the run is `Spec.G` of the argument arrays as launched (for every id word). -/
theorem final4 (c : Dev nD) :
    (dats m 0 c).arrAt 4 cfg0.N
      = Cert.Spec.G (m ((c : Thread nD τ).loc main_arg0)) (m ((c : Thread nD τ).loc main_arg1))
          (m ((c : Thread nD τ).loc main_arg2)) (m ((c : Thread nD τ).loc main_arg3)) := by
  exact (dats m 0 c).arrAt_eq_of_cover 4 _ (fun t _ => flushed_eq m c t) covered

/-- The kernel's run with its result named. -/
theorem run : θ_run defs (onTc (τ := τ) (main (F := Ideal))) ⟨m, fun _ => 0, ρ⟩ fun r => ∀ c : Dev nD,
      r.2.mem ((c : Thread nD τ).loc main_v4)
        = Cert.Spec.G (m ((c : Thread nD τ).loc main_arg0)) (m ((c : Thread nD τ).loc main_arg1))
            (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final4 m c), (h c).2⟩) (run_blocks m ρ)

end Cert.KernelIdeal.KerValue

end
-- ==== Proof.RefTerm.lean ====
/-
  What the reference computes, as ONE term of its four argument arrays, built stage by stage in the order its
  @main applies its operations (the two outlined functions, the variance and the selection inside it, written in line at
  their call sites):

    normIds  — an id below zero has 2048 added to it (a negative index counts from the end), others are kept;
    scIdx    — the scatter's index vectors (b, s, normIds[b,s,w]), the two leading coordinates from iotas
               normalised the same way;
    xs       — the [4,4096,2048] array of zeros with 1.0 written at every index vector that lies inside it;
    xp       — xs contracted with proj_w over the column axis:  xp[b,s,h] = Σ_n xs[b,s,n] · proj_w[h,n];
    mean     — (0 + Σ_h x[b,s,h]) / 2048, kept as a [4,4096,1] column;
    var      — (0 + Σ_h (x − mean)²) / (2048 − 0), selected by the test 2048 − 0 > 0 against a NaN fill;
    out      — (x − mean) · rsqrt(var + ε) · γ + β.
-/
import proofs.«408732_j42623255445785_3_alg».proof.ReferenceIdeal

noncomputable section

namespace Cert.ReferenceIdeal.RefTerm

open Cert.ReferenceIdeal Idealize.ShloMosaic Idealize.SL.Sem
open Facts₀ Facts

variable {F : FTy → Type} [FloatOps F] [Facts]

/-- The batch coordinate 0 … 3 as a [4,1,1] column, a negative one moved up by 4 (none is). -/
def normB : IVec S4x1x1 32 :=
  select (cmpi .slt (broadcastInDim S4x1x1 ![0] bcast_S4_S4x1x1_0 (iotaInDim S4 32 0))
      (broadcastInDim S4x1x1 ![] bcast_S_S4x1x1 (constantI S_ 32 0#32)))
    (addi (broadcastInDim S4x1x1 ![0] bcast_S4_S4x1x1_0 (iotaInDim S4 32 0))
      (broadcastInDim S4x1x1 ![] bcast_S_S4x1x1 (constantI S_ 32 4#32)))
    (broadcastInDim S4x1x1 ![0] bcast_S4_S4x1x1_0 (iotaInDim S4 32 0))

/-- The sequence coordinate 0 … 4095 as a [1,4096,1] column, a negative one moved up by 4096 (none is). -/
def normS : IVec S1x4096x1 32 :=
  select (cmpi .slt (broadcastInDim S1x4096x1 ![1] bcast_S4096_S1x4096x1_1 (iotaInDim S4096 32 0))
      (broadcastInDim S1x4096x1 ![] bcast_S_S1x4096x1 (constantI S_ 32 0#32)))
    (addi (broadcastInDim S1x4096x1 ![1] bcast_S4096_S1x4096x1_1 (iotaInDim S4096 32 0))
      (broadcastInDim S1x4096x1 ![] bcast_S_S1x4096x1 (constantI S_ 32 4096#32)))
    (broadcastInDim S1x4096x1 ![1] bcast_S4096_S1x4096x1_1 (iotaInDim S4096 32 0))

/-- The ids with a negative one moved up by 2048. -/
def normIds (a0 : IVec S4x4096x41 32) : IVec S4x4096x41 32 :=
  select (cmpi .slt a0 (broadcastInDim S4x4096x41 ![] bcast_S_S4x4096x41 (constantI S_ 32 0#32)))
    (addi a0 (broadcastInDim S4x4096x41 ![] bcast_S_S4x4096x41 (constantI S_ 32 2048#32)))
    a0

/-- The scatter's index vectors: `(b, s, normIds[b,s,w])` along a last axis of extent 3. -/
def scIdx (a0 : IVec S4x4096x41 32) : IVec S4x4096x41x3 32 :=
  concatenate S4x4096x41x3 3
    [⟨S4x4096x41x1, broadcastInDim S4x4096x41x1 ![0, 1, 2] bcast_S4x4096x41_S4x4096x41x1_0_1_2
        (broadcastInDim S4x4096x41 ![0, 1, 2] bcast_S4x1x1_S4x4096x41_0_1_2 normB)⟩,
     ⟨S4x4096x41x1, broadcastInDim S4x4096x41x1 ![0, 1, 2] bcast_S4x4096x41_S4x4096x41x1_0_1_2
        (broadcastInDim S4x4096x41 ![0, 1, 2] bcast_S1x4096x1_S4x4096x41_0_1_2 normS)⟩,
     ⟨S4x4096x41x1, broadcastInDim S4x4096x41x1 ![0, 1, 2] bcast_S4x4096x41_S4x4096x41x1_0_1_2 (normIds a0)⟩]
    concatenates_S4x4096x41x1_S4x4096x41x1_S4x4096x41x1_S4x4096x41x3_d3

/-- Zeros with 1.0 written at every index vector inside the array. -/
def xs (a0 : IVec S4x4096x41 32) : FVec F S4x4096x2048 .f32 :=
  Host.scatter scatter_S4x4096x2048_S4x4096x41x3_S4x4096x41_n_012_012_3 (fun _ b => b)
    (broadcastInDim S4x4096x2048 ![] bcast_S_S4x4096x2048 (constant S_ .f32 0x00000000#32))
    (scIdx a0)
    (broadcastInDim S4x4096x41 ![] bcast_S_S4x4096x41 (constant S_ .f32 0x3F800000#32))

/-- The projection: `xs` contracted with `proj_w` over the column axis. -/
def xp (a0 : IVec S4x4096x41 32) (a1 : FVec F S2048x2048 .f32) : FVec F S4x4096x2048 .f32 :=
  Host.dotGeneral dot_S4x4096x2048_S2048x2048_S4x4096x2048_2_1_01_0_n_n none (xs (F := F) a0) a1

/-- The row means as a [4,4096,1] column. -/
def mean (x : FVec F S4x4096x2048 .f32) : FVec F S4x4096x1 .f32 :=
  Host.divf
    (broadcastInDim S4x4096x1 ![0, 1] bcast_S4x4096_S4x4096x1_0_1
      (Host.reduceAdd x (constant S_ .f32 0x00000000#32) reducesTo_S4x4096x2048_S4x4096_d2 h_S_))
    (broadcastInDim S4x4096x1 ![] bcast_S_S4x4096x1 (constant S_ .f32 0x45000000#32))

/-- The divisor of the variance, `2048 − 0` (the second operand the integer 0 converted). -/
def nMinusDdof : FVec F S_ .f32 := subf (constant S_ .f32 0x45000000#32) (sitofp .f32 (constantI S_ 32 0#32))

/-- The row variances as a [4,4096,1] column: the mean of the squared deviations, chosen by `2048 − 0 > 0`. -/
def var (x : FVec F S4x4096x2048 .f32) : FVec F S4x4096x1 .f32 :=
  select (broadcastInDim S4x4096x1 ![] bcast_S_S4x4096x1 (cmpf .ogt (nMinusDdof (F := F)) (constant S_ .f32 0x00000000#32)))
    (Host.divf
      (broadcastInDim S4x4096x1 ![0, 1] bcast_S4x4096_S4x4096x1_0_1
        (Host.reduceAdd
          (mulf (subf x (broadcastInDim S4x4096x2048 ![0, 1, 2] bcast_S4x4096x1_S4x4096x2048_0_1_2 (mean x)))
                (subf x (broadcastInDim S4x4096x2048 ![0, 1, 2] bcast_S4x4096x1_S4x4096x2048_0_1_2 (mean x))))
          (constant S_ .f32 0x00000000#32) reducesTo_S4x4096x2048_S4x4096_d2 h_S_))
      (broadcastInDim S4x4096x1 ![] bcast_S_S4x4096x1 (nMinusDdof (F := F))))
    (broadcastInDim S4x4096x1 ![] bcast_S_S4x4096x1 (id (constant S_ .f32 0x7FC00000#32)))

/-- LayerNorm of `x` along its last axis with scale `a2` and shift `a3`. -/
def ln (x : FVec F S4x4096x2048 .f32) (a2 a3 : FVec F S2048 .f32) : FVec F S4x4096x2048 .f32 :=
  addf
    (mulf
      (mulf (subf x (broadcastInDim S4x4096x2048 ![0, 1, 2] bcast_S4x4096x1_S4x4096x2048_0_1_2 (mean x)))
        (broadcastInDim S4x4096x2048 ![0, 1, 2] bcast_S4x4096x1_S4x4096x2048_0_1_2
          (Host.rsqrt (addf (var x) (broadcastInDim S4x4096x1 ![] bcast_S_S4x4096x1 (constant S_ .f32 0x3727C5AC#32))))))
      (broadcastInDim S4x4096x2048 ![0, 1, 2] bcast_S1x1x2048_S4x4096x2048_0_1_2
        (broadcastInDim S1x1x2048 ![2] bcast_S2048_S1x1x2048_2 a2)))
    (broadcastInDim S4x4096x2048 ![0, 1, 2] bcast_S1x1x2048_S4x4096x2048_0_1_2
      (broadcastInDim S1x1x2048 ![2] bcast_S2048_S1x1x2048_2 a3))

/-- The reference's result. -/
def out (a0 : IVec S4x4096x41 32) (a1 : FVec F S2048x2048 .f32) (a2 a3 : FVec F S2048 .f32) : FVec F S4x4096x2048 .f32 :=
  ln (xp a0 a1) a2 a3

end Cert.ReferenceIdeal.RefTerm

end
-- ==== Proof.RefRun.lean ====
/-
  The reference's run: every weakly fair execution of its @main terminates with the result at the composed term of the arguments, the arguments unchanged.
-/
import proofs.«408732_j42623255445785_3_alg».proof.Proof.Gen.ReferenceIdeal
import proofs.«408732_j42623255445785_3_alg».proof.Proof.RefTerm
import Idealize.ShloMosaic.Lib.StableHlo.Run

noncomputable section

open scoped BigOperators

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's 81 operations in order, the variance's twenty and, inside it, the selection's three written in line at
    the call over the call's buffers. -/
abbrev ops : List (HloOp τ sig (Elt F)) :=
  [ nullary main_v0 (iotaInDim S4 32 0),
    unary main_v0 main_v1 (broadcastInDim S4x1x1 ![0] bcast_S4_S4x1x1_0 : (⟨S4, .i32⟩ : BufTy).Contents (Elt F) → (⟨S4x1x1, .i32⟩ : BufTy).Contents (Elt F)),
    nullary main_v2 (iotaInDim S4096 32 0),
    unary main_v2 main_v3 (broadcastInDim S1x4096x1 ![1] bcast_S4096_S1x4096x1_1 : (⟨S4096, .i32⟩ : BufTy).Contents (Elt F) → (⟨S1x4096x1, .i32⟩ : BufTy).Contents (Elt F)),
    nullary main_cst (constant S_ .f32 0x00000000#32),
    unary main_cst main_v4 (broadcastInDim S4x4096x2048 ![] bcast_S_S4x4096x2048 : (⟨S_, .f32⟩ : BufTy).Contents (Elt F) → (⟨S4x4096x2048, .f32⟩ : BufTy).Contents (Elt F)),
    nullary main_c (constantI S_ 32 0#32),
    unary main_c main_v5 (broadcastInDim S4x1x1 ![] bcast_S_S4x1x1 : (⟨S_, .i32⟩ : BufTy).Contents (Elt F) → (⟨S4x1x1, .i32⟩ : BufTy).Contents (Elt F)),
    binary main_v1 main_v5 main_v6 (cmpi .slt : (⟨S4x1x1, .i32⟩ : BufTy).Contents (Elt F) → (⟨S4x1x1, .i32⟩ : BufTy).Contents (Elt F) → (⟨S4x1x1, .i1⟩ : BufTy).Contents (Elt F)),
    nullary main_c_0 (constantI S_ 32 4#32),
    unary main_c_0 main_v7 (broadcastInDim S4x1x1 ![] bcast_S_S4x1x1 : (⟨S_, .i32⟩ : BufTy).Contents (Elt F) → (⟨S4x1x1, .i32⟩ : BufTy).Contents (Elt F)),
    binary main_v1 main_v7 main_v8 (addi : (⟨S4x1x1, .i32⟩ : BufTy).Contents (Elt F) → (⟨S4x1x1, .i32⟩ : BufTy).Contents (Elt F) → (⟨S4x1x1, .i32⟩ : BufTy).Contents (Elt F)),
    ternary main_v6 main_v8 main_v1 main_v9 (select : (⟨S4x1x1, .i1⟩ : BufTy).Contents (Elt F) → (⟨S4x1x1, .i32⟩ : BufTy).Contents (Elt F) → (⟨S4x1x1, .i32⟩ : BufTy).Contents (Elt F) → (⟨S4x1x1, .i32⟩ : BufTy).Contents (Elt F)),
    nullary main_c_1 (constantI S_ 32 0#32),
    unary main_c_1 main_v10 (broadcastInDim S1x4096x1 ![] bcast_S_S1x4096x1 : (⟨S_, .i32⟩ : BufTy).Contents (Elt F) → (⟨S1x4096x1, .i32⟩ : BufTy).Contents (Elt F)),
    binary main_v3 main_v10 main_v11 (cmpi .slt : (⟨S1x4096x1, .i32⟩ : BufTy).Contents (Elt F) → (⟨S1x4096x1, .i32⟩ : BufTy).Contents (Elt F) → (⟨S1x4096x1, .i1⟩ : BufTy).Contents (Elt F)),
    nullary main_c_2 (constantI S_ 32 4096#32),
    unary main_c_2 main_v12 (broadcastInDim S1x4096x1 ![] bcast_S_S1x4096x1 : (⟨S_, .i32⟩ : BufTy).Contents (Elt F) → (⟨S1x4096x1, .i32⟩ : BufTy).Contents (Elt F)),
    binary main_v3 main_v12 main_v13 (addi : (⟨S1x4096x1, .i32⟩ : BufTy).Contents (Elt F) → (⟨S1x4096x1, .i32⟩ : BufTy).Contents (Elt F) → (⟨S1x4096x1, .i32⟩ : BufTy).Contents (Elt F)),
    ternary main_v11 main_v13 main_v3 main_v14 (select : (⟨S1x4096x1, .i1⟩ : BufTy).Contents (Elt F) → (⟨S1x4096x1, .i32⟩ : BufTy).Contents (Elt F) → (⟨S1x4096x1, .i32⟩ : BufTy).Contents (Elt F) → (⟨S1x4096x1, .i32⟩ : BufTy).Contents (Elt F)),
    nullary main_c_3 (constantI S_ 32 0#32),
    unary main_c_3 main_v15 (broadcastInDim S4x4096x41 ![] bcast_S_S4x4096x41 : (⟨S_, .i32⟩ : BufTy).Contents (Elt F) → (⟨S4x4096x41, .i32⟩ : BufTy).Contents (Elt F)),
    binary main_arg0 main_v15 main_v16 (cmpi .slt : (⟨S4x4096x41, .i32⟩ : BufTy).Contents (Elt F) → (⟨S4x4096x41, .i32⟩ : BufTy).Contents (Elt F) → (⟨S4x4096x41, .i1⟩ : BufTy).Contents (Elt F)),
    nullary main_c_4 (constantI S_ 32 2048#32),
    unary main_c_4 main_v17 (broadcastInDim S4x4096x41 ![] bcast_S_S4x4096x41 : (⟨S_, .i32⟩ : BufTy).Contents (Elt F) → (⟨S4x4096x41, .i32⟩ : BufTy).Contents (Elt F)),
    binary main_arg0 main_v17 main_v18 (addi : (⟨S4x4096x41, .i32⟩ : BufTy).Contents (Elt F) → (⟨S4x4096x41, .i32⟩ : BufTy).Contents (Elt F) → (⟨S4x4096x41, .i32⟩ : BufTy).Contents (Elt F)),
    ternary main_v16 main_v18 main_arg0 main_v19 (select : (⟨S4x4096x41, .i1⟩ : BufTy).Contents (Elt F) → (⟨S4x4096x41, .i32⟩ : BufTy).Contents (Elt F) → (⟨S4x4096x41, .i32⟩ : BufTy).Contents (Elt F) → (⟨S4x4096x41, .i32⟩ : BufTy).Contents (Elt F)),
    unary main_v9 main_v20 (broadcastInDim S4x4096x41 ![0, 1, 2] bcast_S4x1x1_S4x4096x41_0_1_2 : (⟨S4x1x1, .i32⟩ : BufTy).Contents (Elt F) → (⟨S4x4096x41, .i32⟩ : BufTy).Contents (Elt F)),
    unary main_v14 main_v21 (broadcastInDim S4x4096x41 ![0, 1, 2] bcast_S1x4096x1_S4x4096x41_0_1_2 : (⟨S1x4096x1, .i32⟩ : BufTy).Contents (Elt F) → (⟨S4x4096x41, .i32⟩ : BufTy).Contents (Elt F)),
    unary main_v20 main_v22 (broadcastInDim S4x4096x41x1 ![0, 1, 2] bcast_S4x4096x41_S4x4096x41x1_0_1_2 : (⟨S4x4096x41, .i32⟩ : BufTy).Contents (Elt F) → (⟨S4x4096x41x1, .i32⟩ : BufTy).Contents (Elt F)),
    unary main_v21 main_v23 (broadcastInDim S4x4096x41x1 ![0, 1, 2] bcast_S4x4096x41_S4x4096x41x1_0_1_2 : (⟨S4x4096x41, .i32⟩ : BufTy).Contents (Elt F) → (⟨S4x4096x41x1, .i32⟩ : BufTy).Contents (Elt F)),
    unary main_v19 main_v24 (broadcastInDim S4x4096x41x1 ![0, 1, 2] bcast_S4x4096x41_S4x4096x41x1_0_1_2 : (⟨S4x4096x41, .i32⟩ : BufTy).Contents (Elt F) → (⟨S4x4096x41x1, .i32⟩ : BufTy).Contents (Elt F)),
    nary ![main_v22, main_v23, main_v24] main_v25 (fun u => concatenate S4x4096x41x3 3 [⟨S4x4096x41x1, u 0⟩, ⟨S4x4096x41x1, u 1⟩, ⟨S4x4096x41x1, u 2⟩] concatenates_S4x4096x41x1_S4x4096x41x1_S4x4096x41x1_S4x4096x41x3_d3),
    nullary main_cst_5 (constant S_ .f32 0x3F800000#32),
    unary main_cst_5 main_v26 (broadcastInDim S4x4096x41 ![] bcast_S_S4x4096x41 : (⟨S_, .f32⟩ : BufTy).Contents (Elt F) → (⟨S4x4096x41, .f32⟩ : BufTy).Contents (Elt F)),
    ternary main_v4 main_v25 main_v26 main_v27 ((fun x i u => Host.scatter scatter_S4x4096x2048_S4x4096x41x3_S4x4096x41_n_012_012_3 (fun _ b => b) x i u) : (⟨S4x4096x2048, .f32⟩ : BufTy).Contents (Elt F) → (⟨S4x4096x41x3, .i32⟩ : BufTy).Contents (Elt F) → (⟨S4x4096x41, .f32⟩ : BufTy).Contents (Elt F) → (⟨S4x4096x2048, .f32⟩ : BufTy).Contents (Elt F)),
    binary main_v27 main_arg1 main_v28 ((fun l r => Host.dotGeneral dot_S4x4096x2048_S2048x2048_S4x4096x2048_2_1_01_0_n_n none l r) : (⟨S4x4096x2048, .f32⟩ : BufTy).Contents (Elt F) → (⟨S2048x2048, .f32⟩ : BufTy).Contents (Elt F) → (⟨S4x4096x2048, .f32⟩ : BufTy).Contents (Elt F)),
    nullary main_cst_6 (constant S_ .f32 0x00000000#32),
    binary main_v28 main_cst_6 main_v29 ((fun x v => Host.reduceAdd x v reducesTo_S4x4096x2048_S4x4096_d2 h_S_) : (⟨S4x4096x2048, .f32⟩ : BufTy).Contents (Elt F) → (⟨S_, .f32⟩ : BufTy).Contents (Elt F) → (⟨S4x4096, .f32⟩ : BufTy).Contents (Elt F)),
    unary main_v29 main_v30 (broadcastInDim S4x4096x1 ![0, 1] bcast_S4x4096_S4x4096x1_0_1 : (⟨S4x4096, .f32⟩ : BufTy).Contents (Elt F) → (⟨S4x4096x1, .f32⟩ : BufTy).Contents (Elt F)),
    nullary main_cst_7 (constant S_ .f32 0x45000000#32),
    unary main_cst_7 main_v31 (broadcastInDim S4x4096x1 ![] bcast_S_S4x4096x1 : (⟨S_, .f32⟩ : BufTy).Contents (Elt F) → (⟨S4x4096x1, .f32⟩ : BufTy).Contents (Elt F)),
    binary main_v30 main_v31 main_v32 (Host.divf : (⟨S4x4096x1, .f32⟩ : BufTy).Contents (Elt F) → (⟨S4x4096x1, .f32⟩ : BufTy).Contents (Elt F) → (⟨S4x4096x1, .f32⟩ : BufTy).Contents (Elt F)),
    nullary main_c_8 (constantI S_ 32 0#32),
    TRef.nullary main_call0.cst (constant S_ .f32 0x00000000#32),
    TRef.binary (.of main_v28 : TRef sig ⟨S4x4096x2048, .f32⟩) main_call0.cst main_call0.v0 (fun x v => Host.reduceAdd x v reducesTo_S4x4096x2048_S4x4096_d2 h_S_),
    TRef.unary main_call0.v0 main_call0.v1 (broadcastInDim S4x4096x1 ![0, 1] bcast_S4x4096_S4x4096x1_0_1),
    TRef.nullary main_call0.cst_0 (constant S_ .f32 0x45000000#32),
    TRef.unary main_call0.cst_0 main_call0.v2 (broadcastInDim S4x4096x1 ![] bcast_S_S4x4096x1),
    TRef.binary main_call0.v1 main_call0.v2 main_call0.v3 Host.divf,
    TRef.unary main_call0.v3 main_call0.v4 (broadcastInDim S4x4096x2048 ![0, 1, 2] bcast_S4x4096x1_S4x4096x2048_0_1_2),
    TRef.binary (.of main_v28 : TRef sig ⟨S4x4096x2048, .f32⟩) main_call0.v4 main_call0.v5 subf,
    TRef.binary main_call0.v5 main_call0.v5 main_call0.v6 mulf,
    TRef.unary (.of main_c_8 : TRef sig ⟨S_, .i32⟩) main_call0.v7 (sitofp .f32),
    TRef.nullary main_call0.cst_1 (constant S_ .f32 0x45000000#32),
    TRef.binary main_call0.cst_1 main_call0.v7 main_call0.v8 subf,
    TRef.nullary main_call0.cst_2 (constant S_ .f32 0x00000000#32),
    TRef.binary main_call0.v6 main_call0.cst_2 main_call0.v9 (fun x v => Host.reduceAdd x v reducesTo_S4x4096x2048_S4x4096_d2 h_S_),
    TRef.unary main_call0.v9 main_call0.v10 (broadcastInDim S4x4096x1 ![0, 1] bcast_S4x4096_S4x4096x1_0_1),
    TRef.unary main_call0.v8 main_call0.v11 (broadcastInDim S4x4096x1 ![] bcast_S_S4x4096x1),
    TRef.binary main_call0.v10 main_call0.v11 main_call0.v12 Host.divf,
    TRef.nullary main_call0.cst_3 (constant S_ .f32 0x00000000#32),
    TRef.binary main_call0.v8 main_call0.cst_3 main_call0.v13 (cmpf .ogt),
    TRef.nullary main_call0.cst_4 (constant S_ .f32 0x7FC00000#32),
    TRef.unary main_call0.cst_4 main_call0.call0.v0 id,
    TRef.unary main_call0.call0.v0 main_call0.call0.v1 (broadcastInDim S4x4096x1 ![] bcast_S_S4x4096x1),
    TRef.ternary main_call0.v13 main_call0.v12 main_call0.call0.v1 main_call0.call0.v2 (fun p a b => select (broadcastInDim S4x4096x1 ![] bcast_S_S4x4096x1 p) a b),
    unary main_v32 main_v34 (broadcastInDim S4x4096x2048 ![0, 1, 2] bcast_S4x4096x1_S4x4096x2048_0_1_2 : (⟨S4x4096x1, .f32⟩ : BufTy).Contents (Elt F) → (⟨S4x4096x2048, .f32⟩ : BufTy).Contents (Elt F)),
    binary main_v28 main_v34 main_v35 (subf : (⟨S4x4096x2048, .f32⟩ : BufTy).Contents (Elt F) → (⟨S4x4096x2048, .f32⟩ : BufTy).Contents (Elt F) → (⟨S4x4096x2048, .f32⟩ : BufTy).Contents (Elt F)),
    nullary main_cst_9 (constant S_ .f32 0x3727C5AC#32),
    unary main_cst_9 main_v36 (broadcastInDim S4x4096x1 ![] bcast_S_S4x4096x1 : (⟨S_, .f32⟩ : BufTy).Contents (Elt F) → (⟨S4x4096x1, .f32⟩ : BufTy).Contents (Elt F)),
    binary main_v33 main_v36 main_v37 (addf : (⟨S4x4096x1, .f32⟩ : BufTy).Contents (Elt F) → (⟨S4x4096x1, .f32⟩ : BufTy).Contents (Elt F) → (⟨S4x4096x1, .f32⟩ : BufTy).Contents (Elt F)),
    unary main_v37 main_v38 (Host.rsqrt : (⟨S4x4096x1, .f32⟩ : BufTy).Contents (Elt F) → (⟨S4x4096x1, .f32⟩ : BufTy).Contents (Elt F)),
    unary main_v38 main_v39 (broadcastInDim S4x4096x2048 ![0, 1, 2] bcast_S4x4096x1_S4x4096x2048_0_1_2 : (⟨S4x4096x1, .f32⟩ : BufTy).Contents (Elt F) → (⟨S4x4096x2048, .f32⟩ : BufTy).Contents (Elt F)),
    binary main_v35 main_v39 main_v40 (mulf : (⟨S4x4096x2048, .f32⟩ : BufTy).Contents (Elt F) → (⟨S4x4096x2048, .f32⟩ : BufTy).Contents (Elt F) → (⟨S4x4096x2048, .f32⟩ : BufTy).Contents (Elt F)),
    unary main_arg2 main_v41 (broadcastInDim S1x1x2048 ![2] bcast_S2048_S1x1x2048_2 : (⟨S2048, .f32⟩ : BufTy).Contents (Elt F) → (⟨S1x1x2048, .f32⟩ : BufTy).Contents (Elt F)),
    unary main_v41 main_v42 (broadcastInDim S4x4096x2048 ![0, 1, 2] bcast_S1x1x2048_S4x4096x2048_0_1_2 : (⟨S1x1x2048, .f32⟩ : BufTy).Contents (Elt F) → (⟨S4x4096x2048, .f32⟩ : BufTy).Contents (Elt F)),
    binary main_v40 main_v42 main_v43 (mulf : (⟨S4x4096x2048, .f32⟩ : BufTy).Contents (Elt F) → (⟨S4x4096x2048, .f32⟩ : BufTy).Contents (Elt F) → (⟨S4x4096x2048, .f32⟩ : BufTy).Contents (Elt F)),
    unary main_arg3 main_v44 (broadcastInDim S1x1x2048 ![2] bcast_S2048_S1x1x2048_2 : (⟨S2048, .f32⟩ : BufTy).Contents (Elt F) → (⟨S1x1x2048, .f32⟩ : BufTy).Contents (Elt F)),
    unary main_v44 main_v45 (broadcastInDim S4x4096x2048 ![0, 1, 2] bcast_S1x1x2048_S4x4096x2048_0_1_2 : (⟨S1x1x2048, .f32⟩ : BufTy).Contents (Elt F) → (⟨S4x4096x2048, .f32⟩ : BufTy).Contents (Elt F)),
    binary main_v43 main_v45 main_v46 (addf : (⟨S4x4096x2048, .f32⟩ : BufTy).Contents (Elt F) → (⟨S4x4096x2048, .f32⟩ : BufTy).Contents (Elt F) → (⟨S4x4096x2048, .f32⟩ : BufTy).Contents (Elt F)) ]

-- both sides compute to the same chain of steps: the two functions unfold at their calls and sequencing
-- passes through each step (eighty-one of them, hence the depth)
set_option maxRecDepth 8192 in
/-- @main is that straight line. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem ops_sub : (ops : List (HloOp τ sig (Elt F))).Forall fun op => op.bufs ⊆ tcRefs τ sig :=
  ⟨nullary_bufs_sub .., unary_bufs_sub .., nullary_bufs_sub .., unary_bufs_sub .., nullary_bufs_sub .., unary_bufs_sub ..,
    nullary_bufs_sub .., unary_bufs_sub .., binary_bufs_sub .., nullary_bufs_sub .., unary_bufs_sub .., binary_bufs_sub ..,
    ternary_bufs_sub .., nullary_bufs_sub .., unary_bufs_sub .., binary_bufs_sub .., nullary_bufs_sub .., unary_bufs_sub ..,
    binary_bufs_sub .., ternary_bufs_sub .., nullary_bufs_sub .., unary_bufs_sub .., binary_bufs_sub .., nullary_bufs_sub ..,
    unary_bufs_sub .., binary_bufs_sub .., ternary_bufs_sub .., unary_bufs_sub .., unary_bufs_sub .., unary_bufs_sub ..,
    unary_bufs_sub .., unary_bufs_sub .., nary_bufs_sub .., nullary_bufs_sub .., unary_bufs_sub .., ternary_bufs_sub ..,
    binary_bufs_sub .., nullary_bufs_sub .., binary_bufs_sub .., unary_bufs_sub .., nullary_bufs_sub .., unary_bufs_sub ..,
    binary_bufs_sub .., nullary_bufs_sub .., nullary_bufs_sub .., binary_bufs_sub .., unary_bufs_sub .., nullary_bufs_sub ..,
    unary_bufs_sub .., binary_bufs_sub .., unary_bufs_sub .., binary_bufs_sub .., binary_bufs_sub .., unary_bufs_sub ..,
    nullary_bufs_sub .., binary_bufs_sub .., nullary_bufs_sub .., binary_bufs_sub .., unary_bufs_sub .., unary_bufs_sub ..,
    binary_bufs_sub .., nullary_bufs_sub .., binary_bufs_sub .., nullary_bufs_sub .., unary_bufs_sub .., unary_bufs_sub ..,
    ternary_bufs_sub .., unary_bufs_sub .., binary_bufs_sub .., nullary_bufs_sub .., unary_bufs_sub .., binary_bufs_sub ..,
    unary_bufs_sub .., unary_bufs_sub .., binary_bufs_sub .., unary_bufs_sub .., unary_bufs_sub .., binary_bufs_sub ..,
    unary_bufs_sub .., unary_bufs_sub .., binary_bufs_sub ..⟩

/-! ## What the buffers hold after the line

Each operation leaves its own result buffer at its function's value of its operands' contents and every other
buffer as it was, so the fold at a buffer is a computation over the list. -/

-- one inequality of references per operation and buffer read, decided by computation: program-sized budgets
set_option maxRecDepth 8192 in
set_option maxHeartbeats 4000000 in
/-- The result buffer ends at `RefTerm.out` of the four arguments. Reading the fold back operation by operation
    leaves the composed term, except the three operands of the index vectors' concatenate, whose folds stay
    unread inside the operand list; those and the identity transports around the two functions' operations (the
    call's buffers carry the functions' own types) are equal to `RefTerm`'s stages by computation. -/
theorem out_eq (V : Valuation τ sig (Elt F)) :
    after ops V (Proc.devRef .tc main_v46)
      = RefTerm.out (F := F) (V (Proc.devRef .tc main_arg0)) (V (Proc.devRef .tc main_arg1))
          (V (Proc.devRef .tc main_arg2)) (V (Proc.devRef .tc main_arg3)) := by
  simp (disch := decide) only [after_cons, after_nil, nullary_result', unary_result', binary_result', ternary_result', nary_result',
    nullary_result_ne', unary_result_ne', binary_result_ne', ternary_result_ne', nary_result_ne',
    Matrix.cons_val_zero, Matrix.cons_val_one, Matrix.cons_val_two, Matrix.head_cons, Matrix.tail_cons]
  rfl

set_option maxRecDepth 8192 in
set_option maxHeartbeats 4000000 in
/-- No operation writes argument 0's buffer. -/
theorem arg0_eq (V : Valuation τ sig (Elt F)) :
    after ops V (Proc.devRef .tc main_arg0) = V (Proc.devRef .tc main_arg0) := by
  after_results_simp

set_option maxRecDepth 8192 in
set_option maxHeartbeats 4000000 in
/-- No operation writes argument 1's buffer. -/
theorem arg1_eq (V : Valuation τ sig (Elt F)) :
    after ops V (Proc.devRef .tc main_arg1) = V (Proc.devRef .tc main_arg1) := by
  after_results_simp

set_option maxRecDepth 8192 in
set_option maxHeartbeats 4000000 in
/-- No operation writes argument 2's buffer. -/
theorem arg2_eq (V : Valuation τ sig (Elt F)) :
    after ops V (Proc.devRef .tc main_arg2) = V (Proc.devRef .tc main_arg2) := by
  after_results_simp

set_option maxRecDepth 8192 in
set_option maxHeartbeats 4000000 in
/-- No operation writes argument 3's buffer. -/
theorem arg3_eq (V : Valuation τ sig (Elt F)) :
    after ops V (Proc.devRef .tc main_arg3) = V (Proc.devRef .tc main_arg3) := by
  after_results_simp

/-! ## The run -/

-- the list's eighty-one operations are gone through one by one (none leaves a buffer's contents undetermined)
set_option maxRecDepth 8192 in
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v46) = RefTerm.out (F := F) (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v46).trans (out_eq _),
      (h c main_arg0).trans (arg0_eq _),
      (h c main_arg1).trans (arg1_eq _),
      (h c main_arg2).trans (arg2_eq _),
      (h c main_arg3).trans (arg3_eq _)⟩)
    (run_seq scopedRefs_eq scopedSems_eq defs main (fun _ => ops) main_eq (fun _ => ops_sub) m ρ)

end Cert.ReferenceIdeal.RefRun

end
-- ==== Proof.ScatterSet.lean ====
/-
  The scatter that writes 1.0 into zeros, read at an index: under non-negative ids the array holds the row's indicator.
-/
import proofs.«408732_j42623255445785_3_alg».proof.Proof.Gen.ReferenceIdeal
import proofs.«408732_j42623255445785_3_alg».proof.Proof.RefTerm
import proofs.«408732_j42623255445785_3_alg».proof.Proof.Spec
import Idealize.ShloMosaic.Lib.ValueIdx

noncomputable section

open scoped BigOperators

namespace Cert.ReferenceIdeal.ScatterSet

open Cert.ReferenceIdeal Idealize.ShloMosaic Idealize.ShloMosaic.ValueIdx

/-! ## A scatter that sets one value into a constant array -/

section General
variable {s si u : Shape} {α : Type} {w : Nat}

/-- One step of the scatter's fold: update position `n` replaces the element at the index it lands on, if it lands. -/
def step (d : ScatterDims s si u) (f : α → α → α) (idx : IVec si w) (upd : u.Idx → α) (r : s.Idx → α)
    (n : Fin u.numel) : s.Idx → α :=
  match d.resultIdx? (u.rowMajor.symm n) idx with
  | some i => fun i' => if i' = i then f (r i) (upd (u.rowMajor.symm n)) else r i'
  | none => r

/-- The scatter is the left fold of that step over the update positions in row-major order. -/
theorem scatter_eq_foldl (d : ScatterDims s si u) (f : α → α → α) (x : s.Idx → α) (idx : IVec si w) (upd : u.Idx → α) :
    Host.scatter d f x idx upd = (List.finRange u.numel).foldl (step d f idx upd) x := rfl

/-- A step whose update lands on `i` leaves the set value there. -/
theorem step_hit (d : ScatterDims s si u) (idx : IVec si w) (o : α) (r : s.Idx → α) (n : Fin u.numel) (i : s.Idx)
    (h : d.resultIdx? (u.rowMajor.symm n) idx = some i) :
    step d (fun _ b => b) idx (fun _ => o) r n i = o := by
  unfold step
  rw [h]
  exact if_pos rfl

/-- A step whose update does not land on `i` leaves the element at `i` as it was. -/
theorem step_miss (d : ScatterDims s si u) (idx : IVec si w) (o : α) (r : s.Idx → α) (n : Fin u.numel) (i : s.Idx)
    (h : d.resultIdx? (u.rowMajor.symm n) idx ≠ some i) :
    step d (fun _ b => b) idx (fun _ => o) r n i = r i := by
  unfold step
  cases hr : d.resultIdx? (u.rowMajor.symm n) idx with
  | none => rfl
  | some i'' =>
    have hne : i ≠ i'' := fun e => h (by rw [hr, e])
    exact if_neg hne

/-- The fold over a list of update positions, read at `i`: the set value if some position of the list lands on `i`,
    otherwise the start value. -/
theorem foldl_step (d : ScatterDims s si u) (idx : IVec si w) (o : α) (i : s.Idx) :
    ∀ (L : List (Fin u.numel)) (r : s.Idx → α),
      ((∃ n ∈ L, d.resultIdx? (u.rowMajor.symm n) idx = some i) →
        L.foldl (step d (fun _ b => b) idx (fun _ => o)) r i = o) ∧
      ((¬∃ n ∈ L, d.resultIdx? (u.rowMajor.symm n) idx = some i) →
        L.foldl (step d (fun _ b => b) idx (fun _ => o)) r i = r i) := by
  intro L
  induction L with
  | nil =>
    intro r
    exact ⟨fun ⟨n, hn, _⟩ => absurd hn (List.not_mem_nil), fun _ => rfl⟩
  | cons n L ih =>
    intro r
    rw [List.foldl_cons]
    obtain ⟨ih1, ih2⟩ := ih (step d (fun _ b => b) idx (fun _ => o) r n)
    constructor
    · rintro ⟨m, hm, hhit⟩
      by_cases hL : ∃ n ∈ L, d.resultIdx? (u.rowMajor.symm n) idx = some i
      · exact ih1 hL
      · rw [ih2 hL]
        rcases List.mem_cons.1 hm with rfl | hm'
        · exact step_hit d idx o r m i hhit
        · exact absurd ⟨m, hm', hhit⟩ hL
    · intro hno
      have hL : ¬∃ n ∈ L, d.resultIdx? (u.rowMajor.symm n) idx = some i :=
        fun ⟨m, hm, hh⟩ => hno ⟨m, List.mem_cons_of_mem _ hm, hh⟩
      rw [ih2 hL]
      exact step_miss d idx o r n i (fun hh => hno ⟨n, List.mem_cons_self, hh⟩)

/-- Some update position lands on `i` exactly when some update index does. -/
theorem exists_pos_iff (d : ScatterDims s si u) (idx : IVec si w) (i : s.Idx) :
    (∃ n ∈ List.finRange u.numel, d.resultIdx? (u.rowMajor.symm n) idx = some i) ↔ ∃ j, d.resultIdx? j idx = some i := by
  constructor
  · rintro ⟨n, _, h⟩
    exact ⟨_, h⟩
  · rintro ⟨j, h⟩
    exact ⟨u.rowMajor j, List.mem_finRange _, by rw [Equiv.symm_apply_apply]; exact h⟩

/-- Setting `o` into the constant `z`: where some update lands the result is `o`. -/
theorem scatter_set_hit (d : ScatterDims s si u) (z o : α) (idx : IVec si w) (i : s.Idx)
    (h : ∃ j, d.resultIdx? j idx = some i) :
    Host.scatter d (fun _ b => b) (fun _ => z) idx (fun _ => o) i = o := by
  rw [scatter_eq_foldl]
  exact (foldl_step d idx o i _ _).1 ((exists_pos_iff d idx i).2 h)

/-- Setting `o` into the constant `z`: where no update lands the result is `z`. -/
theorem scatter_set_miss (d : ScatterDims s si u) (z o : α) (idx : IVec si w) (i : s.Idx)
    (h : ¬∃ j, d.resultIdx? j idx = some i) :
    Host.scatter d (fun _ b => b) (fun _ => z) idx (fun _ => o) i = z := by
  rw [scatter_eq_foldl]
  exact (foldl_step d idx o i _ _).2 (fun h' => h ((exists_pos_iff d idx i).1 h'))

/-- An update lands on `i` exactly when, on every axis, its start plus its window coordinate is `i`'s coordinate. -/
theorem resultIdx?_eq_some_iff (d : ScatterDims s si u) (j : u.Idx) (idx : IVec si w) (i : s.Idx) :
    d.resultIdx? j idx = some i ↔ ∀ a, d.start j idx a + (d.window j a : Int) = ((i a).val : Int) := by
  unfold ScatterDims.resultIdx?
  constructor
  · intro h a
    split at h
    · rename_i hb
      have h' := congrFun (Option.some.inj h) a
      have hv : (d.start j idx a + (d.window j a : Int)).toNat = (i a).val := congrArg Fin.val h'
      have := (hb a).1
      omega
    · exact absurd h (by simp)
  · intro H
    have hb : ∀ a, 0 ≤ d.start j idx a + (d.window j a : Int) ∧ d.start j idx a + (d.window j a : Int) < s.size a := by
      intro a
      have := (i a).isLt
      rw [H a]
      omega
    rw [dif_pos hb]
    refine congrArg some (funext fun a => Fin.ext ?_)
    show (d.start j idx a + (d.window j a : Int)).toNat = (i a).val
    rw [H a]
    exact Int.toNat_natCast _

end General

/-! ## This scatter's index arithmetic -/

section Words

/-- A natural below 2^31, as a 32-bit word read signed, is itself. -/
theorem toInt_ofNat_small (k : Nat) (hk : k < 2147483648) : (BitVec.ofNat 32 k).toInt = (k : Int) := by
  rw [BitVec.toInt_eq_toNat_cond, BitVec.toNat_ofNat]
  have : k % 2 ^ 32 = k := Nat.mod_eq_of_lt (by omega)
  rw [this]
  split <;> omega

/-- "Below zero" on a word that is not, as a one-bit word, is `0`. -/
theorem cmpi_slt_zero_of_nonneg (x : BitVec 32) (hx : 0 ≤ x.toInt) : IntOp.cmpi .slt x 0#32 = 0#1 := by
  show BitVec.ofBool (x.slt 0#32) = 0#1
  have : x.slt 0#32 = false := by
    rw [BitVec.slt_eq_decide]
    simp only [BitVec.toInt_zero, decide_eq_false_iff_not, not_lt]
    exact hx
  rw [this]
  rfl

/-- Moving a negative word up leaves a non-negative word as it is. -/
theorem norm_of_nonneg (x y : BitVec 32) (hx : 0 ≤ x.toInt) :
    Scalar.select (IntOp.cmpi .slt x 0#32) (IntOp.addi x y) x = x := by
  rw [cmpi_slt_zero_of_nonneg x hx]
  exact select_zero _ _

end Words

section ThisScatter

open RefTerm

/-- The reference's scatter dimension numbers. -/
local notation "dS" => scatter_S4x4096x2048_S4x4096x41x3_S4x4096x41_n_012_012_3

/-- No operand axis is a window axis: every window coordinate is zero. -/
theorem window_zero (j : S4x4096x41.Idx) (a : Fin 3) : ScatterDims.window dS j a = 0 := by
  match a with
  | ⟨0, _⟩ => rfl
  | ⟨1, _⟩ => rfl
  | ⟨2, _⟩ => rfl

/-- Update index `(b, s, w)` reads component `c` of its start index at `(b, s, w, c)`. -/
theorem siIdx_eq (b' : Fin 4) (s' : Fin 4096) (w : Fin 41) (c : Fin 3) :
    ScatterDims.siIdx dS (ix3 b' s' w) c = ix4 b' s' w c := by
  funext e
  match e with
  | ⟨0, _⟩ => rfl
  | ⟨1, _⟩ => rfl
  | ⟨2, _⟩ => rfl
  | ⟨3, _⟩ => rfl

/-- The start on operand axis `c` is component `c` of the index vector, read signed. -/
theorem start_eq (a0 : IVec S4x4096x41 32) (b' : Fin 4) (s' : Fin 4096) (w : Fin 41) (c : Fin 3) :
    ScatterDims.start dS (ix3 b' s' w) (scIdx a0) c = (scIdx a0 (ix4 b' s' w c)).toInt := by
  match c with
  | ⟨0, _⟩ => exact congrArg (fun k => (scIdx a0 k).toInt) (siIdx_eq b' s' w ⟨0, by decide⟩)
  | ⟨1, _⟩ => exact congrArg (fun k => (scIdx a0 k).toInt) (siIdx_eq b' s' w ⟨1, by decide⟩)
  | ⟨2, _⟩ => exact congrArg (fun k => (scIdx a0 k).toInt) (siIdx_eq b' s' w ⟨2, by decide⟩)

/-- Component 0 of the index vector at `(b, s, w)`: the batch coordinate, moved up if negative. -/
theorem scIdx_0 (a0 : IVec S4x4096x41 32) (b' : Fin 4) (s' : Fin 4096) (w : Fin 41) :
    scIdx a0 (ix4 b' s' w (0 : Fin 3)) =
      Scalar.select (IntOp.cmpi .slt (BitVec.ofNat 32 b'.val) 0#32) (IntOp.addi (BitVec.ofNat 32 b'.val) 4#32)
        (BitVec.ofNat 32 b'.val) := rfl

/-- Component 1: the sequence coordinate, moved up if negative. -/
theorem scIdx_1 (a0 : IVec S4x4096x41 32) (b' : Fin 4) (s' : Fin 4096) (w : Fin 41) :
    scIdx a0 (ix4 b' s' w (1 : Fin 3)) =
      Scalar.select (IntOp.cmpi .slt (BitVec.ofNat 32 s'.val) 0#32) (IntOp.addi (BitVec.ofNat 32 s'.val) 4096#32)
        (BitVec.ofNat 32 s'.val) := rfl

/-- Component 2: the id at `(b, s, w)`, moved up if negative. -/
theorem scIdx_2 (a0 : IVec S4x4096x41 32) (b' : Fin 4) (s' : Fin 4096) (w : Fin 41) :
    scIdx a0 (ix4 b' s' w (2 : Fin 3)) = normIds a0 (ix3 b' s' w) := by
  refine congrArg (normIds a0) ?_
  funext a
  match a with
  | ⟨0, _⟩ => rfl
  | ⟨1, _⟩ => rfl
  | ⟨2, _⟩ => rfl

/-- A non-negative id is kept. -/
theorem normIds_of_nonneg (a0 : IVec S4x4096x41 32) (k : S4x4096x41.Idx) (hk : 0 ≤ (a0 k).toInt) :
    normIds a0 k = a0 k :=
  norm_of_nonneg (a0 k) 2048#32 hk

/-- The start on axis 0 is the batch coordinate. -/
theorem start_0 (a0 : IVec S4x4096x41 32) (b' : Fin 4) (s' : Fin 4096) (w : Fin 41) :
    ScatterDims.start dS (ix3 b' s' w) (scIdx a0) (0 : Fin 3) = (b'.val : Int) := by
  refine (start_eq a0 b' s' w 0).trans ?_
  refine (congrArg BitVec.toInt (scIdx_0 a0 b' s' w)).trans ?_
  have hb : (BitVec.ofNat 32 b'.val).toInt = (b'.val : Int) := toInt_ofNat_small _ (by have := b'.isLt; omega)
  rw [norm_of_nonneg _ _ (by rw [hb]; omega)]
  exact hb

/-- The start on axis 1 is the sequence coordinate. -/
theorem start_1 (a0 : IVec S4x4096x41 32) (b' : Fin 4) (s' : Fin 4096) (w : Fin 41) :
    ScatterDims.start dS (ix3 b' s' w) (scIdx a0) (1 : Fin 3) = (s'.val : Int) := by
  refine (start_eq a0 b' s' w 1).trans ?_
  refine (congrArg BitVec.toInt (scIdx_1 a0 b' s' w)).trans ?_
  have hs : (BitVec.ofNat 32 s'.val).toInt = (s'.val : Int) := toInt_ofNat_small _ (by have := s'.isLt; omega)
  rw [norm_of_nonneg _ _ (by rw [hs]; omega)]
  exact hs

/-- The start on axis 2 is the id, when it is non-negative. -/
theorem start_2 (a0 : IVec S4x4096x41 32) (b' : Fin 4) (s' : Fin 4096) (w : Fin 41)
    (h : 0 ≤ (a0 (ix3 b' s' w)).toInt) :
    ScatterDims.start dS (ix3 b' s' w) (scIdx a0) (2 : Fin 3) = (a0 (ix3 b' s' w)).toInt := by
  refine (start_eq a0 b' s' w 2).trans ?_
  refine (congrArg BitVec.toInt (scIdx_2 a0 b' s' w)).trans ?_
  rw [normIds_of_nonneg a0 _ h]

/-- Update index `(b', s', w)` lands on `(b, s, n)` exactly when `b' = b`, `s' = s` and its id is `n`. -/
theorem lands_iff (a0 : IVec S4x4096x41 32) (hnn : ∀ j, 0 ≤ (a0 j).toInt) (b : Fin 4) (s : Fin 4096) (n : Fin 2048)
    (b' : Fin 4) (s' : Fin 4096) (w : Fin 41) :
    ScatterDims.resultIdx? dS (ix3 b' s' w) (scIdx a0) = some (ix3 b s n) ↔
      b' = b ∧ s' = s ∧ (a0 (ix3 b' s' w)).toInt = (n.val : Int) := by
  rw [resultIdx?_eq_some_iff]
  have e0 := start_0 a0 b' s' w
  have e1 := start_1 a0 b' s' w
  have e2 := start_2 a0 b' s' w (hnn _)
  have w0 := window_zero (ix3 b' s' w) 0
  have w1 := window_zero (ix3 b' s' w) 1
  have w2 := window_zero (ix3 b' s' w) 2
  constructor
  · intro H
    have h0 : ScatterDims.start dS (ix3 b' s' w) (scIdx a0) (0 : Fin 3)
        + ((ScatterDims.window dS (ix3 b' s' w) (0 : Fin 3) : Nat) : Int) = (b.val : Int) := H 0
    have h1 : ScatterDims.start dS (ix3 b' s' w) (scIdx a0) (1 : Fin 3)
        + ((ScatterDims.window dS (ix3 b' s' w) (1 : Fin 3) : Nat) : Int) = (s.val : Int) := H 1
    have h2 : ScatterDims.start dS (ix3 b' s' w) (scIdx a0) (2 : Fin 3)
        + ((ScatterDims.window dS (ix3 b' s' w) (2 : Fin 3) : Nat) : Int) = (n.val : Int) := H 2
    rw [e0, w0] at h0
    rw [e1, w1] at h1
    rw [e2, w2] at h2
    exact ⟨Fin.ext (by omega), Fin.ext (by omega), by omega⟩
  · rintro ⟨hb, hs, hn⟩ a
    have hb' : b'.val = b.val := congrArg Fin.val hb
    have hs' : s'.val = s.val := congrArg Fin.val hs
    match a with
    | ⟨0, _⟩ =>
      show ScatterDims.start dS (ix3 b' s' w) (scIdx a0) (0 : Fin 3)
        + ((ScatterDims.window dS (ix3 b' s' w) (0 : Fin 3) : Nat) : Int) = (b.val : Int)
      rw [e0, w0]; omega
    | ⟨1, _⟩ =>
      show ScatterDims.start dS (ix3 b' s' w) (scIdx a0) (1 : Fin 3)
        + ((ScatterDims.window dS (ix3 b' s' w) (1 : Fin 3) : Nat) : Int) = (s.val : Int)
      rw [e1, w1]; omega
    | ⟨2, _⟩ =>
      show ScatterDims.start dS (ix3 b' s' w) (scIdx a0) (2 : Fin 3)
        + ((ScatterDims.window dS (ix3 b' s' w) (2 : Fin 3) : Nat) : Int) = (n.val : Int)
      rw [e2, w2]; omega

/-- Some update lands on `(b, s, n)` exactly when row `(b, s)` names column `n`. -/
theorem exists_lands_iff (a0 : IVec S4x4096x41 32) (hnn : ∀ j, 0 ≤ (a0 j).toInt) (b : Fin 4) (s : Fin 4096)
    (n : Fin 2048) :
    (∃ j, ScatterDims.resultIdx? dS j (scIdx a0) = some (ix3 b s n)) ↔ Cert.Spec.hit (Cert.Spec.row a0 b s) n := by
  constructor
  · rintro ⟨j, hj⟩
    obtain ⟨b', s', w, rfl⟩ : ∃ (b' : Fin 4) (s' : Fin 4096) (w : Fin 41), j = ix3 b' s' w :=
      ⟨j 0, j 1, j 2, eq_ix3 j⟩
    obtain ⟨hb, hs, h2⟩ := (lands_iff a0 hnn b s n b' s' w).1 hj
    subst hb hs
    exact ⟨w, h2⟩
  · rintro ⟨w, hw⟩
    exact ⟨ix3 b s w, (lands_iff a0 hnn b s n b s w).2 ⟨rfl, rfl, hw⟩⟩

/-- The word 1.0 denotes 1. -/
theorem ofBits_one : Ideal.ofBits .f32 0x3F800000#32 = 1 := by
  simp [Ideal.ofBits, Ideal.ieee, -EReal.coe_mul]; norm_num

end ThisScatter

/-- With every id non-negative, the scattered array at (b, s, n) is 1 when some id of row (b, s) equals n and 0 otherwise. -/
theorem xs_apply (a0 : IVec S4x4096x41 32) (hnn : ∀ j, 0 ≤ (a0 j).toInt) (b : Fin 4) (s : Fin 4096) (n : Fin 2048) :
    RefTerm.xs (F := Ideal) a0 (ix3 b s n) = Cert.Spec.ind (Cert.Spec.row a0 b s) n := by
  have hx : RefTerm.xs (F := Ideal) a0 =
      Host.scatter scatter_S4x4096x2048_S4x4096x41x3_S4x4096x41_n_012_012_3 (fun _ b => b)
        (fun _ => Ideal.ofBits .f32 0x00000000#32) (RefTerm.scIdx a0) (fun _ => Ideal.ofBits .f32 0x3F800000#32) := rfl
  have hiff := exists_lands_iff a0 hnn b s n
  unfold Cert.Spec.ind
  by_cases hh : Cert.Spec.hit (Cert.Spec.row a0 b s) n
  · rw [if_pos hh, hx, scatter_set_hit _ _ _ _ _ (hiff.2 hh)]
    exact ofBits_one
  · rw [if_neg hh, hx, scatter_set_miss _ _ _ _ _ (fun h => hh (hiff.1 h))]
    exact Ideal.ofBits_zero_f32

end Cert.ReferenceIdeal.ScatterSet

end
-- ==== Proof.RefValue.lean ====
/-
  The reference's term, read index by index at the extended reals, is the specification.
-/
import proofs.«408732_j42623255445785_3_alg».proof.Proof.Gen.ReferenceIdeal
import proofs.«408732_j42623255445785_3_alg».proof.Proof.RefTerm
import proofs.«408732_j42623255445785_3_alg».proof.Proof.ScatterSet
import proofs.«408732_j42623255445785_3_alg».proof.Proof.Spec
import Idealize.ShloMosaic.Lib.ValueIdx
import Idealize.ShloMosaic.PureOps.Ideal.Laws

noncomputable section

open scoped BigOperators

namespace Cert.ReferenceIdeal.RefValue

open Cert.ReferenceIdeal Idealize.ShloMosaic Idealize.ShloMosaic.ValueIdx

/-! ## Broadcasts read at an index -/

/-- A [4,4096,1] column broadcast along the last axis reads the column's entry of the row. -/
theorem bc_col {α : Type} (v : S4x4096x1.Idx → α) (b : Fin 4) (s : Fin 4096) (h : Fin 2048) :
    broadcastInDim S4x4096x2048 ![0, 1, 2] Facts₀.bcast_S4x4096x1_S4x4096x2048_0_1_2 v (ix3 b s h)
      = v (ix3 b s (0 : Fin 1)) := by
  unfold broadcastInDim
  refine congrArg v (funext fun a => Fin.ext ?_)
  match a with
  | ⟨0, _⟩ => rfl
  | ⟨1, _⟩ => rfl
  | ⟨2, _⟩ => rfl

/-- A [4,4096] array given a trailing unit axis reads the same entry. -/
theorem bc_keep {α : Type} (v : S4x4096.Idx → α) (b : Fin 4) (s : Fin 4096) (z : Fin 1) :
    broadcastInDim S4x4096x1 ![0, 1] Facts₀.bcast_S4x4096_S4x4096x1_0_1 v (ix3 b s z) = v (ix2 b s) := by
  unfold broadcastInDim
  refine congrArg v (funext fun a => Fin.ext ?_)
  match a with
  | ⟨0, _⟩ => rfl
  | ⟨1, _⟩ => rfl

/-- A [2048] vector broadcast over the two leading axes reads its entry at the last coordinate. -/
theorem bc_vec {α : Type} (v : S2048.Idx → α) (b : Fin 4) (s : Fin 4096) (h : Fin 2048) :
    broadcastInDim S4x4096x2048 ![0, 1, 2] Facts₀.bcast_S1x1x2048_S4x4096x2048_0_1_2
      (broadcastInDim S1x1x2048 ![2] Facts₀.bcast_S2048_S1x1x2048_2 v) (ix3 b s h) = v (ix1 h) := by
  unfold broadcastInDim
  refine congrArg v (funext fun a => Fin.ext ?_)
  match a with
  | ⟨0, _⟩ => rfl

/-- A scalar broadcast to a [4,4096,1] column reads the scalar. -/
theorem bc_scalar {α : Type} (v : S_.Idx → α) (j : S4x4096x1.Idx) :
    broadcastInDim S4x4096x1 ![] Facts₀.bcast_S_S4x4096x1 v j = v ix0 := by
  unfold broadcastInDim
  exact congrArg v (funext fun a => a.elim0)

/-! ## The row sum -/

/-- The sum over the last axis from the word 0.0, at row (b, s), is the sum of the row's 2048 entries. -/
theorem rsum_apply (x : FVec Ideal S4x4096x2048 .f32) (b : Fin 4) (s : Fin 4096) :
    Host.reduceAdd (F := Ideal) x (constant (F := Ideal) S_ .f32 0x00000000#32)
        Facts₀.reducesTo_S4x4096x2048_S4x4096_d2 Facts₀.h_S_ (ix2 b s)
      = ∑ k : Fin 2048, x (ix3 b s k) := by
  have hR : S4x4096x2048.Reduces [2] S4x4096 := by decide
  show Ideal.hostReduceAdd Facts₀.reducesTo_S4x4096x2048_S4x4096_d2 x (Ideal.ofBits .f32 0x00000000#32) (ix2 b s) = _
  rw [Ideal.hostReduceAdd_single _ hR, Ideal.ofBits_zero_f32, zero_add]
  refine Finset.sum_congr rfl fun k _ => congrArg x ?_
  funext a
  refine Fin.ext ?_
  match a with
  | ⟨0, _⟩ => rfl
  | ⟨1, _⟩ => rfl
  | ⟨2, _⟩ => rfl

/-! ## The two words of the variance's divisor -/

/-- The word 0x45000000 is the real 2048. -/
theorem c2048_eq : Ideal.ofBits .f32 0x45000000#32 = ((2048 : ℝ) : EReal) := by
  simp [Ideal.ofBits, Ideal.ieee, -EReal.coe_mul]; norm_num

/-- The variance's divisor 2048 − 0, the 0 an integer converted, is the word 2048.0 again. -/
theorem nMinusDdof_apply : RefTerm.nMinusDdof (F := Ideal) ix0 = Cert.Spec.c2048 := by
  show Ideal.ofBits .f32 0x45000000#32 - (((0#32 : BitVec 32).toInt : ℝ) : EReal) = Ideal.ofBits .f32 0x45000000#32
  have h0 : (((0#32 : BitVec 32).toInt : ℝ) : EReal) = 0 := by
    rw [show (0#32 : BitVec 32).toInt = 0 from rfl]; norm_num
  rw [h0, sub_zero]

/-- The test 2048 − 0 > 0 holds. -/
theorem cmp_apply :
    cmpf .ogt (RefTerm.nMinusDdof (F := Ideal)) (constant (F := Ideal) S_ .f32 0x00000000#32) ix0 = 1#1 := by
  show Ideal.cmp .ogt (RefTerm.nMinusDdof (F := Ideal) ix0) (Ideal.ofBits .f32 0x00000000#32) = 1#1
  rw [nMinusDdof_apply, Ideal.ofBits_zero_f32]
  show BitVec.ofBool (decide ((0 : EReal) < Cert.Spec.c2048)) = 1#1
  have hpos : (0 : EReal) < Cert.Spec.c2048 := by
    show (0 : EReal) < Ideal.ofBits .f32 0x45000000#32
    rw [c2048_eq]
    exact EReal.coe_pos.mpr (by norm_num)
  rw [decide_eq_true hpos]
  rfl

/-! ## Mean, variance and the normalised row, at an index -/

/-- The quotient at an index is the division of the elements. -/
theorem hdivf_apply {s : Shape} {φ : FTy} (a b : FVec Ideal s φ) (i : s.Idx) :
    Host.divf a b i = Ideal.div (a i) (b i) := rfl

/-- The reciprocal square root at an index is that of the element. -/
theorem hrsqrt_apply {s : Shape} {φ : FTy} (a : FVec Ideal s φ) (i : s.Idx) :
    Host.rsqrt a i = Ideal.rsqrt (a i) := rfl

/-- The mean's column at row (b, s): the row's sum divided by the word 2048.0. -/
theorem mean_apply (x : FVec Ideal S4x4096x2048 .f32) (b : Fin 4) (s : Fin 4096) (z : Fin 1) :
    RefTerm.mean (F := Ideal) x (ix3 b s z) = Ideal.div (∑ k : Fin 2048, x (ix3 b s k)) Cert.Spec.c2048 := by
  unfold RefTerm.mean
  rw [hdivf_apply, bc_keep, bc_scalar, rsum_apply]
  rfl

/-- The variance's column at row (b, s): the sum of the squared deviations from the mean, divided by the word 2048.0. -/
theorem var_apply (x : FVec Ideal S4x4096x2048 .f32) (b : Fin 4) (s : Fin 4096) (z : Fin 1) :
    RefTerm.var (F := Ideal) x (ix3 b s z)
      = Ideal.div (∑ k : Fin 2048,
            (x (ix3 b s k) - Ideal.div (∑ k : Fin 2048, x (ix3 b s k)) Cert.Spec.c2048)
              * (x (ix3 b s k) - Ideal.div (∑ k : Fin 2048, x (ix3 b s k)) Cert.Spec.c2048)) Cert.Spec.c2048 := by
  unfold RefTerm.var
  rw [select_apply, bc_scalar, cmp_apply, select_one, hdivf_apply, bc_keep, bc_scalar, rsum_apply, nMinusDdof_apply]
  refine congrArg (fun t => Ideal.div t Cert.Spec.c2048) (Finset.sum_congr rfl fun k _ => ?_)
  rw [mulf_apply, subf_apply, bc_col, mean_apply]

/-- LayerNorm of `x` at (b, s, h) is the row formula of the specification on row (b, s). -/
theorem ln_apply (x : FVec Ideal S4x4096x2048 .f32) (a2 a3 : FVec Ideal S2048 .f32) (b : Fin 4) (s : Fin 4096) (h : Fin 2048) :
    RefTerm.ln (F := Ideal) x a2 a3 (ix3 b s h)
      = Cert.Spec.lnRow (fun k => x (ix3 b s k)) (fun k => a2 (ix1 k)) (fun k => a3 (ix1 k)) h := by
  unfold RefTerm.ln
  rw [addf_apply, mulf_apply, mulf_apply, subf_apply]
  rw [bc_vec, bc_vec]
  rw [bc_col, bc_col, mean_apply, hrsqrt_apply, addf_apply, var_apply, bc_scalar]
  rfl

/-! ## The contraction at an index -/

/-- The left operand's index at result (b, s, h) and column n is (b, s, n) … -/
theorem lhs_ix (b : Fin 4) (s : Fin 4096) (h n : Fin 2048) :
    dot_S4x4096x2048_S2048x2048_S4x4096x2048_2_1_01_0_n_n.lhsIdx (ix3 b s h)
        ((contrEquiv1 dot_S4x4096x2048_S2048x2048_S4x4096x2048_2_1_01_0_n_n 2048 rfl rfl).symm n) = ix3 b s n := by
  have c := contrEquiv1_symm_val dot_S4x4096x2048_S2048x2048_S4x4096x2048_2_1_01_0_n_n 2048 rfl rfl n
  funext a
  refine Fin.ext ?_
  match a with
  | ⟨0, _⟩ => simp [DotDims.lhsIdx, dot_S4x4096x2048_S2048x2048_S4x4096x2048_2_1_01_0_n_n]; rfl
  | ⟨1, _⟩ => simp [DotDims.lhsIdx, dot_S4x4096x2048_S2048x2048_S4x4096x2048_2_1_01_0_n_n]; rfl
  | ⟨2, _⟩ => simp [DotDims.lhsIdx, dot_S4x4096x2048_S2048x2048_S4x4096x2048_2_1_01_0_n_n]; exact c

/-- … and the right operand's is (h, n). -/
theorem rhs_ix (b : Fin 4) (s : Fin 4096) (h n : Fin 2048) :
    dot_S4x4096x2048_S2048x2048_S4x4096x2048_2_1_01_0_n_n.rhsIdx (ix3 b s h)
        ((contrEquiv1 dot_S4x4096x2048_S2048x2048_S4x4096x2048_2_1_01_0_n_n 2048 rfl rfl).symm n) = ix2 h n := by
  have c := contrEquiv1_symm_val dot_S4x4096x2048_S2048x2048_S4x4096x2048_2_1_01_0_n_n 2048 rfl rfl n
  funext a
  refine Fin.ext ?_
  match a with
  | ⟨0, _⟩ => simp [DotDims.rhsIdx, dot_S4x4096x2048_S2048x2048_S4x4096x2048_2_1_01_0_n_n]; rfl
  | ⟨1, _⟩ => simp [DotDims.rhsIdx, dot_S4x4096x2048_S2048x2048_S4x4096x2048_2_1_01_0_n_n]; exact c

/-- The projection at (b, s, h): the specification's projected row of row (b, s), at h. -/
theorem xp_apply (a0 : IVec S4x4096x41 32) (a1 : FVec Ideal S2048x2048 .f32) (hnn : ∀ j, 0 ≤ (a0 j).toInt)
    (b : Fin 4) (s : Fin 4096) (h : Fin 2048) :
    RefTerm.xp (F := Ideal) a0 a1 (ix3 b s h)
      = Cert.Spec.proj (Cert.Spec.row a0 b s) (fun h' n => a1 (ix2 h' n)) h := by
  unfold RefTerm.xp Cert.Spec.proj
  show FloatOps.dotGeneral dot_S4x4096x2048_S2048x2048_S4x4096x2048_2_1_01_0_n_n none .single
      (RefTerm.xs (F := Ideal) a0) a1 (ix3 b s h) = _
  rw [Ideal.dotGeneral_apply,
    ← Equiv.sum_comp (contrEquiv1 dot_S4x4096x2048_S2048x2048_S4x4096x2048_2_1_01_0_n_n 2048 rfl rfl).symm]
  refine Finset.sum_congr rfl fun n _ => ?_
  rw [lhs_ix, rhs_ix, ScatterSet.xs_apply a0 hnn]

/-- With every id non-negative, the reference's result is `Spec.G` of its arguments. -/
theorem out_eq (a0 : IVec S4x4096x41 32) (a1 : FVec Ideal S2048x2048 .f32) (a2 a3 : FVec Ideal S2048 .f32)
    (hnn : ∀ j, 0 ≤ (a0 j).toInt) :
    RefTerm.out (F := Ideal) a0 a1 a2 a3 = Cert.Spec.G a0 a1 a2 a3 := by
  funext j
  obtain ⟨b, s, h, rfl⟩ : ∃ (b : Fin 4) (s : Fin 4096) (h : Fin 2048), j = ix3 b s h := ⟨j 0, j 1, j 2, eq_ix3 j⟩
  rw [Cert.Spec.G_ix3]
  unfold RefTerm.out Cert.Spec.G3
  rw [ln_apply]
  exact congrArg (fun X => Cert.Spec.lnRow X (fun k => a2 (ix1 k)) (fun k => a3 (ix1 k)) h)
    (funext fun k => xp_apply a0 a1 hnn b s k)

end Cert.ReferenceIdeal.RefValue

end
-- ==== Proof.PreDecode.lean ====
/-
  What the precondition says of the ids: every one is non-negative.
-/
import proofs.«408732_j42623255445785_3_alg».proof.Pre_finite_inputs
import proofs.«408732_j42623255445785_3_alg».proof.Proof.Gen.Pre_finite_inputs
import Idealize.ShloMosaic.Lib.ReduceAll
import Idealize.ShloMosaic.Lib.ValueIdx

noncomputable section

open scoped BigOperators

namespace Cert.Pre_finite_inputs.PreDecode

open Cert.Pre_finite_inputs Idealize.ShloMosaic Idealize.ShloMosaic.ValueIdx

/-- The rank-0 shape has exactly one index. -/
instance subsingleton_S_Idx : Subsingleton S_.Idx := ⟨fun a b => funext fun d => d.elim0⟩

/-- If the printed precondition is all ones, every id is non-negative as a signed integer. -/
theorem ids_nonneg (a0 : IVec S4x4096x41 32) (a1 : FVec Ideal S2048x2048 .f32) (a2 a3 : FVec Ideal S2048 .f32)
    (h : Cert.Pre_finite_inputs.fn (F := Ideal) a0 a1 a2 a3 = fun _ => 1#1) : ∀ j, 0 ≤ (a0 j).toInt := by
  intro j
  -- the one element of the rank-0 result
  have h0 := congrFun h ValueIdx.ix0
  dsimp only [fn, fn_part1] at h0
  -- the last conjunct of the conjunction: the all-reduction of the signed compares is 1
  have h1 := (IntOp.andi_eq_one.1 h0).2
  -- so the compare is 1 at every index of the ids
  have h2 := Host.reduce_andi_all _ _ _ _ _ h1 j
  -- a signed "greater or equal" that is 1 orders the signed values; the right operand is the broadcast zero
  have h3 : (0#32 : BitVec 32).toInt ≤ (a0 j).toInt := IntOp.cmpi_sge.1 h2
  simpa using h3

end Cert.Pre_finite_inputs.PreDecode

end
-- ==== Proof.lean ====
/-
  The certificate's claims, assembled.

  The kernel builds, for each of 256 rows of a grid point's block, the 0/1 indicator of the columns its 41 ids name —
  sixteen groups of 128 lanes, group i keeping the ids whose high part (id shifted right by 7, arithmetically) is i and
  lane l those whose low seven bits are l — contracts each group with its 128 rows of the transposed weight matrix,
  adds the sixteen products up and normalises the row (LayerNorm). The reference writes 1.0 into a row of 2048 zeros at
  every id (an id below zero first moved up by 2048, an id outside the row dropped), contracts the row with the weight
  matrix and normalises it the same way.

  Since id = 128·(id >> 7) + (id & 127) for every 32-bit word, the kernel's indicator is "some id of the row EQUALS the
  column" for every id word (`KerGroup`, `KerBody`, `KerValue`: the kernel's result is `Spec.G` of its arguments with no
  hypothesis). The reference's is "some id of the row, moved up by 2048 if negative, equals the column": the same once
  every id is non-negative, which the precondition says (`PreDecode`, `ScatterSet`, `RefValue`). The two contractions
  differ only in how the 2048 terms are grouped (`Spec.sum_groups`), so the floats' finiteness is never used.

  The three frames: the kernel's two are the generated frame certificates; the reference's is its run with the
  result dropped. `preserves` has no entry to state.
-/
import proofs.«408732_j42623255445785_3_alg».proof.Defs
import proofs.«408732_j42623255445785_3_alg».proof.Proof.Gen.Kernel
import proofs.«408732_j42623255445785_3_alg».proof.Proof.Gen.Kernel.Frame
import proofs.«408732_j42623255445785_3_alg».proof.Proof.Gen.KernelIdeal
import proofs.«408732_j42623255445785_3_alg».proof.Proof.Gen.KernelIdeal.Frame
import proofs.«408732_j42623255445785_3_alg».proof.Proof.Gen.ReferenceIdeal
import proofs.«408732_j42623255445785_3_alg».proof.Proof.Gen.Pre_finite_inputs
import proofs.«408732_j42623255445785_3_alg».proof.Proof.KerValue
import proofs.«408732_j42623255445785_3_alg».proof.Proof.RefRun
import proofs.«408732_j42623255445785_3_alg».proof.Proof.RefValue
import proofs.«408732_j42623255445785_3_alg».proof.Proof.PreDecode

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run, the result forgotten. -/
theorem frame_referenceIdeal : Cert.frame_ReferenceIdeal := fun m ρ _ =>
  (θ_run Cert.ReferenceIdeal.defs _ _).mono (fun _ h c => (h c).2) (Cert.ReferenceIdeal.RefRun.run (F := Ideal) m ρ)

/-- The idealisation rewrote nothing: there is no entry to state. -/
theorem preserves : Cert.preserves_Kernel_KernelIdeal := trivial

/-- Both runs end at `Spec.G` of the (agreeing) arguments: the kernel's for every id word, the reference's because the
    precondition makes every id non-negative. -/
theorem algebraic : Cert.algebraic_KernelIdeal_ReferenceIdeal := by
  intro m ρ m' ρ' hpre hagree
  refine ⟨_, Cert.KernelIdeal.KerValue.run m ρ, ?_⟩
  refine (θ_run Cert.ReferenceIdeal.defs _ _).mono (fun _ h c => ⟨(h c).1.trans ?_, (h c).2⟩)
    (Cert.ReferenceIdeal.RefRun.run (F := Ideal) m' ρ')
  rw [(hagree c).1, (hagree c).2.1, (hagree c).2.2.1, (hagree c).2.2.2]
  exact Cert.ReferenceIdeal.RefValue.out_eq _ _ _ _
    (Cert.Pre_finite_inputs.PreDecode.ids_nonneg _ _ _ _ (hpre c))

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
